-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x4096 : Shape := ⟨2, ![8, 4096]⟩
abbrev S64x1792x512 : Shape := ⟨3, ![64, 1792, 512]⟩
abbrev S64x512x512 : Shape := ⟨3, ![64, 512, 512]⟩
abbrev S64x512x1792 : Shape := ⟨3, ![64, 512, 1792]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S64x1792x512 : S_.BroadcastsInDim S64x1792x512 (![] : Fin 0 → Fin S64x1792x512.rank)
  reducesTo_S64x1792x512_S_d0_1_2 : S64x1792x512.ReducesTo [0, 1, 2] S_
  bcast_S_S64x512x512 : S_.BroadcastsInDim S64x512x512 (![] : Fin 0 → Fin S64x512x512.rank)
  reducesTo_S64x512x512_S_d0_1_2 : S64x512x512.ReducesTo [0, 1, 2] S_
  bcast_S_S64x512x1792 : S_.BroadcastsInDim S64x512x1792 (![] : Fin 0 → Fin S64x512x1792.rank)
  reducesTo_S64x512x1792_S_d0_1_2 : S64x512x1792.ReducesTo [0, 1, 2] S_

variable [Facts]

def fn_part1 {F : FTy → Type} [FloatOps F] (main_v13 : IVec S_ 1) (main_v16 : IVec S64x512x1792 1) : IVec S_ 1 :=
  let main_c_5 : IVec S_ 1 := constantI S_ 1 1#1
  let main_v17 : IVec S_ 1 := (fun x v => Host.reduce IntOp.andi x v reducesTo_S64x512x1792_S_d0_1_2 h_S_) main_v16 main_c_5
  let main_v18 : IVec S_ 1 := andi main_v13 main_v17
  main_v18

def fn {F : FTy → Type} [FloatOps F] (main_arg0 : FVec F S8x4096x512 .f32) (main_arg1 : IVec S8x4096 32) (main_arg2 : FVec F S64x1792x512 .f32) (main_arg3 : FVec F S64x512x512 .f32) (main_arg4 : FVec F S64x512x1792 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S64x1792x512 .f32 := Host.absf main_arg2
  let main_cst_0 : FVec F S_ .f32 := constant S_ .f32 0x7F800000#32
  let main_v5 : FVec F S64x1792x512 .f32 := broadcastInDim S64x1792x512 ![] bcast_S_S64x1792x512 main_cst_0
  let main_v6 : IVec S64x1792x512 1 := cmpf .olt main_v4 main_v5
  let main_c_1 : IVec S_ 1 := constantI S_ 1 1#1
  let main_v7 : IVec S_ 1 := (fun x v => Host.reduce IntOp.andi x v reducesTo_S64x1792x512_S_d0_1_2 h_S_) main_v6 main_c_1
  let main_v8 : IVec S_ 1 := andi main_v3 main_v7
  let main_v9 : FVec F S64x512x512 .f32 := Host.absf main_arg3
  let main_cst_2 : FVec F S_ .f32 := constant S_ .f32 0x7F800000#32
  let main_v10 : FVec F S64x512x512 .f32 := broadcastInDim S64x512x512 ![] bcast_S_S64x512x512 main_cst_2
  let main_v11 : IVec S64x512x512 1 := cmpf .olt main_v9 main_v10
  let main_c_3 : IVec S_ 1 := constantI S_ 1 1#1
  let main_v12 : IVec S_ 1 := (fun x v => Host.reduce IntOp.andi x v reducesTo_S64x512x512_S_d0_1_2 h_S_) main_v11 main_c_3
  let main_v13 : IVec S_ 1 := andi main_v8 main_v12
  let main_v14 : FVec F S64x512x1792 .f32 := Host.absf main_arg4
  let main_cst_4 : FVec F S_ .f32 := constant S_ .f32 0x7F800000#32
  let main_v15 : FVec F S64x512x1792 .f32 := broadcastInDim S64x512x1792 ![] bcast_S_S64x512x1792 main_cst_4
  let main_v16 : IVec S64x512x1792 1 := cmpf .olt main_v14 main_v15
  fn_part1 (F := F) main_v13 main_v16
-- ==== Kernel.lean ====
abbrev S8x4096x512 : Shape := ⟨3, ![8, 4096, 512]⟩
abbrev S8x4096 : Shape := ⟨2, ![8, 4096]⟩
abbrev S64x1792x512 : Shape := ⟨3, ![64, 1792, 512]⟩
abbrev S64x512x512 : Shape := ⟨3, ![64, 512, 512]⟩
abbrev S64x512x1792 : Shape := ⟨3, ![64, 512, 1792]⟩
abbrev S32768 : Shape := ⟨1, ![32768]⟩
abbrev S_ : Shape := ⟨0, ![]⟩
abbrev S32768x1 : Shape := ⟨2, ![32768, 1]⟩
abbrev S1x64 : Shape := ⟨2, ![1, 64]⟩
abbrev S32768x64 : Shape := ⟨2, ![32768, 64]⟩
abbrev S32768x512 : Shape := ⟨2, ![32768, 512]⟩
abbrev S32768x2 : Shape := ⟨2, ![32768, 2]⟩
abbrev S1x256x512 : Shape := ⟨3, ![1, 256, 512]⟩
abbrev S1x1792x512 : Shape := ⟨3, ![1, 1792, 512]⟩
abbrev S1x512x512 : Shape := ⟨3, ![1, 512, 512]⟩
abbrev S1x512x1792 : Shape := ⟨3, ![1, 512, 1792]⟩
abbrev S256x512 : Shape := ⟨2, ![256, 512]⟩
abbrev S1792x512 : Shape := ⟨2, ![1792, 512]⟩
abbrev S512x512 : Shape := ⟨2, ![512, 512]⟩
abbrev S512x1792 : Shape := ⟨2, ![512, 1792]⟩
abbrev S256x1792 : Shape := ⟨2, ![256, 1792]⟩

abbrev nBuf : Space → Nat
  | .hbm => 120
  | .vmem => 10
  | .smem => 0
  | _ => 0

abbrev bufTy : (tb : Table) → Fin (tcTables nBuf tb) → BufTy
  | .hbm, ⟨0, _⟩ => ⟨S8x4096x512, .f32⟩
  | .hbm, ⟨1, _⟩ => ⟨S8x4096, .i32⟩
  | .hbm, ⟨2, _⟩ => ⟨S64x1792x512, .f32⟩
  | .hbm, ⟨3, _⟩ => ⟨S64x512x512, .f32⟩
  | .hbm, ⟨4, _⟩ => ⟨S64x512x1792, .f32⟩
  | .hbm, ⟨5, _⟩ => ⟨S32768, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i1⟩
  | .hbm, ⟨20, _⟩ => ⟨S_, .i32⟩
  | .hbm, ⟨21, _⟩ => ⟨S_, .i1⟩
  | .hbm, ⟨22, _⟩ => ⟨S32768, .i1⟩
  | .hbm, ⟨23, _⟩ => ⟨S32768, .i1⟩
  | .hbm, ⟨24, _⟩ => ⟨S32768, .i1⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S_, .i32⟩
  | .hbm, ⟨37, _⟩ => ⟨S32768, .i32⟩
  | .hbm, ⟨38, _⟩ => ⟨S32768, .i1⟩
  | .hbm, ⟨39, _⟩ => ⟨S_, .i32⟩
  | .hbm, ⟨40, _⟩ => ⟨S32768, .i32⟩
  | .hbm, ⟨41, _⟩ => ⟨S32768, .i1⟩
  | .hbm, ⟨42, _⟩ => ⟨S_, .i32⟩
  | .hbm, ⟨43, _⟩ => ⟨S_, .i1⟩
  | .hbm, ⟨44, _⟩ => ⟨S32768, .i1⟩
  | .hbm, ⟨45, _⟩ => ⟨S32768, .i1⟩
  | .hbm, ⟨46, _⟩ => ⟨S32768, .i1⟩
  | .hbm, ⟨47, _⟩ => ⟨S32768, .i32⟩
  | .hbm, ⟨48, _⟩ => ⟨S32768, .i32⟩
  | .hbm, ⟨49, _⟩ => ⟨S32768, .i32⟩
  | .hbm, ⟨50, _⟩ => ⟨S32768x1, .i32⟩
  | .hbm, ⟨51, _⟩ => ⟨S1x64, .i32⟩
  | .hbm, ⟨52, _⟩ => ⟨S32768x64, .i32⟩
  | .hbm, ⟨53, _⟩ => ⟨S32768x64, .i32⟩
  | .hbm, ⟨54, _⟩ => ⟨S32768x64, .i1⟩
  | .hbm, ⟨55, _⟩ => ⟨S32768x64, .i32⟩
  | .hbm, ⟨56, _⟩ => ⟨S_, .i32⟩
  | .hbm, ⟨57, _⟩ => ⟨S_, .i32⟩
  | .hbm, ⟨58, _⟩ => ⟨S32768x64, .i32⟩
  | .hbm, ⟨59, _⟩ => ⟨S32768x64, .i32⟩
  | .hbm, ⟨60, _⟩ => ⟨S_, .i32⟩
  | .hbm, ⟨61, _⟩ => ⟨S32768, .i32⟩
  | .hbm, ⟨62, _⟩ => ⟨S_, .i32⟩
  | .hbm, ⟨63, _⟩ => ⟨S32768, .i32⟩
  | .hbm, ⟨64, _⟩ => ⟨S32768, .i32⟩
  | .hbm, ⟨65, _⟩ => ⟨S_, .i32⟩
  | .hbm, ⟨66, _⟩ => ⟨S32768, .i32⟩
  | .hbm, ⟨67, _⟩ => ⟨S32768, .i1⟩
  | .hbm, ⟨68, _⟩ => ⟨S32768x512, .f32⟩
  | .hbm, ⟨69, _⟩ => ⟨S_, .i32⟩
  | .hbm, ⟨70, _⟩ => ⟨S_, .i32⟩
  | .hbm, ⟨71, _⟩ => ⟨S32768, .i32⟩
  | .hbm, ⟨72, _⟩ => ⟨S32768, .i32⟩
  | .hbm, ⟨73, _⟩ => ⟨S_, .f32⟩
  | .hbm, ⟨74, _⟩ => ⟨S64x512x512, .f32⟩
  | .hbm, ⟨75, _⟩ => ⟨S_, .i32⟩
  | .hbm, ⟨76, _⟩ => ⟨S32768, .i32⟩
  | .hbm, ⟨77, _⟩ => ⟨S32768, .i1⟩
  | .hbm, ⟨78, _⟩ => ⟨S_, .i32⟩
  | .hbm, ⟨79, _⟩ => ⟨S32768, .i32⟩
  | .hbm, ⟨80, _⟩ => ⟨S32768, .i32⟩
  | .hbm, ⟨81, _⟩ => ⟨S32768, .i32⟩
  | .hbm, ⟨82, _⟩ => ⟨S_, .i32⟩
  | .hbm, ⟨83, _⟩ => ⟨S32768, .i32⟩
  | .hbm, ⟨84, _⟩ => ⟨S32768, .i1⟩
  | .hbm, ⟨85, _⟩ => ⟨S_, .i32⟩
  | .hbm, ⟨86, _⟩ => ⟨S32768, .i32⟩
  | .hbm, ⟨87, _⟩ => ⟨S32768, .i32⟩
  | .hbm, ⟨88, _⟩ => ⟨S32768, .i32⟩
  | .hbm, ⟨89, _⟩ => ⟨S32768x1, .i32⟩
  | .hbm, ⟨90, _⟩ => ⟨S32768x1, .i32⟩
  | .hbm, ⟨91, _⟩ => ⟨S32768x2, .i32⟩
  | .hbm, ⟨92, _⟩ => ⟨S64x512x512, .f32⟩
  | .hbm, ⟨93, _⟩ => ⟨S64x512x512, .f32⟩
  | .hbm, ⟨94, _⟩ => ⟨S_, .i32⟩
  | .hbm, ⟨95, _⟩ => ⟨S32768, .i32⟩
  | .hbm, ⟨96, _⟩ => ⟨S32768, .i32⟩
  | .hbm, ⟨97, _⟩ => ⟨S_, .i32⟩
  | .hbm, ⟨98, _⟩ => ⟨S32768, .i32⟩
  | .hbm, ⟨99, _⟩ => ⟨S32768, .i1⟩
  | .hbm, ⟨100, _⟩ => ⟨S_, .i32⟩
  | .hbm, ⟨101, _⟩ => ⟨S32768, .i32⟩
  | .hbm, ⟨102, _⟩ => ⟨S32768, .i32⟩
  | .hbm, ⟨103, _⟩ => ⟨S32768, .i32⟩
  | .hbm, ⟨104, _⟩ => ⟨S_, .i32⟩
  | .hbm, ⟨105, _⟩ => ⟨S32768, .i32⟩
  | .hbm, ⟨106, _⟩ => ⟨S32768, .i1⟩
  | .hbm, ⟨107, _⟩ => ⟨S_, .i32⟩
  | .hbm, ⟨108, _⟩ => ⟨S32768, .i32⟩
  | .hbm, ⟨109, _⟩ => ⟨S32768, .i32⟩
  | .hbm, ⟨110, _⟩ => ⟨S32768, .i32⟩
  | .hbm, ⟨111, _⟩ => ⟨S32768x1, .i32⟩
  | .hbm, ⟨112, _⟩ => ⟨S32768x1, .i32⟩
  | .hbm, ⟨113, _⟩ => ⟨S32768x2, .i32⟩
  | .hbm, ⟨114, _⟩ => ⟨S32768x512, .f32⟩
  | .hbm, ⟨115, _⟩ => ⟨S32768x1, .i1⟩
  | .hbm, ⟨116, _⟩ => ⟨S32768x1, .f32⟩
  | .hbm, ⟨117, _⟩ => ⟨S32768x512, .f32⟩
  | .hbm, ⟨118, _⟩ => ⟨S32768x512, .f32⟩
  | .hbm, ⟨119, _⟩ => ⟨S8x4096x512, .f32⟩
  | .local _ .vmem, ⟨0, _⟩ => ⟨S1x256x512, .f32⟩
  | .local _ .vmem, ⟨1, _⟩ => ⟨S1x256x512, .f32⟩
  | .local _ .vmem, ⟨2, _⟩ => ⟨S1x1792x512, .f32⟩
  | .local _ .vmem, ⟨3, _⟩ => ⟨S1x1792x512, .f32⟩
  | .local _ .vmem, ⟨4, _⟩ => ⟨S1x512x512, .f32⟩
  | .local _ .vmem, ⟨5, _⟩ => ⟨S1x512x512, .f32⟩
  | .local _ .vmem, ⟨6, _⟩ => ⟨S1x512x1792, .f32⟩
  | .local _ .vmem, ⟨7, _⟩ => ⟨S1x512x1792, .f32⟩
  | .local _ .vmem, ⟨8, _⟩ => ⟨S1x256x512, .f32⟩
  | .local _ .vmem, ⟨9, _⟩ => ⟨S1x256x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v2 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v3 : Ref sig .tc := ⟨.hbm, 55, rfl⟩
abbrev main_call3_call0_c : Ref sig .tc := ⟨.hbm, 56, rfl⟩
abbrev main_call3_call0_v0 : Ref sig .tc := ⟨.hbm, 57, rfl⟩
abbrev main_v4 : Ref sig .tc := ⟨.hbm, 58, rfl⟩
abbrev main_v5 : Ref sig .tc := ⟨.hbm, 59, rfl⟩
abbrev main_c_1 : Ref sig .tc := ⟨.hbm, 60, rfl⟩
abbrev main_v6 : Ref sig .tc := ⟨.hbm, 61, rfl⟩
abbrev main_c_2 : Ref sig .tc := ⟨.hbm, 62, rfl⟩
abbrev main_v7 : Ref sig .tc := ⟨.hbm, 63, rfl⟩
abbrev main_v8 : Ref sig .tc := ⟨.hbm, 64, rfl⟩
abbrev main_c_3 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_c_4 : Ref sig .tc := ⟨.hbm, 69, rfl⟩
abbrev main_call4_v0 : Ref sig .tc := ⟨.hbm, 70, rfl⟩
abbrev main_call4_v1 : Ref sig .tc := ⟨.hbm, 71, rfl⟩
abbrev main_v12 : Ref sig .tc := ⟨.hbm, 72, rfl⟩
abbrev main_cst : Ref sig .tc := ⟨.hbm, 73, rfl⟩
abbrev main_v13 : Ref sig .tc := ⟨.hbm, 74, rfl⟩
abbrev main_c_5 : Ref sig .tc := ⟨.hbm, 75, rfl⟩
abbrev main_v14 : Ref sig .tc := ⟨.hbm, 76, rfl⟩
abbrev main_v15 : Ref sig .tc := ⟨.hbm, 77, rfl⟩
abbrev main_c_6 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_c_7 : Ref sig .tc := ⟨.hbm, 82, rfl⟩
abbrev main_v19 : Ref sig .tc := ⟨.hbm, 83, rfl⟩
abbrev main_v20 : Ref sig .tc := ⟨.hbm, 84, rfl⟩
abbrev main_c_8 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_c_9 : Ref sig .tc := ⟨.hbm, 94, rfl⟩
abbrev main_v29 : Ref sig .tc := ⟨.hbm, 95, rfl⟩
abbrev main_v30 : Ref sig .tc := ⟨.hbm, 96, rfl⟩
abbrev main_c_10 : Ref sig .tc := ⟨.hbm, 97, rfl⟩
abbrev main_v31 : Ref sig .tc := ⟨.hbm, 98, rfl⟩
abbrev main_v32 : Ref sig .tc := ⟨.hbm, 99, rfl⟩
abbrev main_c_11 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_c_12 : Ref sig .tc := ⟨.hbm, 104, rfl⟩
abbrev main_v36 : Ref sig .tc := ⟨.hbm, 105, rfl⟩
abbrev main_v37 : Ref sig .tc := ⟨.hbm, 106, rfl⟩
abbrev main_c_13 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1792x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x4096_S32768 : S8x4096.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  bcast_S1x64_S32768x64_0_1 : S1x64.BroadcastsInDim S32768x64 (![0, 1] : Fin 2 → Fin S32768x64.rank)
  natLt_1_32 : 1 < 32
  bcast_S_S_ : S_.BroadcastsInDim S_ (![] : Fin 0 → Fin S_.rank)
  reduceWindows_S32768x64_S32768x64_w32768s1p32767_0_w1s1p0_0 : S32768x64.ReduceWindows (![32768, 1] : Fin 2 → Nat) ![1, 1] ![32767, 0] ![0, 0] S32768x64
  h_S_ : 0 < S_.numel
  reducesTo_S32768x64_S32768_d1 : S32768x64.ReducesTo [1] S32768
  shapeCasts_S8x4096x512_S32768x512 : S8x4096x512.ShapeCasts S32768x512
  bcast_S_S64x512x512 : S_.BroadcastsInDim S64x512x512 (![] : Fin 0 → Fin S64x512x512.rank)
  concatenates_S32768x1_S32768x1_S32768x2_d1 : Shape.Concatenates [S32768x1, S32768x1] S32768x2 1
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S1x1792x512_S1x1792x512_0_0_0 : ∀ a, (![0, 0, 0] : Fin 3 → Nat) a + S1x1792x512.size a ≤ S1x1792x512.size a
  h_S1x1792x512 : 0 < S1x1792x512.numel
  shapeCasts_S1x1792x512_S1792x512 : S1x1792x512.ShapeCasts S1792x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x1792_S1x512x1792_0_0_0 : ∀ a, (![0, 0, 0] : Fin 3 → Nat) a + S1x512x1792.size a ≤ S1x512x1792.size a
  h_S1x512x1792 : 0 < S1x512x1792.numel
  shapeCasts_S1x512x1792_S512x1792 : S1x512x1792.ShapeCasts S512x1792
  shapeCasts_S256x512_S1x256x512 : S256x512.ShapeCasts S1x256x512
  bcast_S32768x1_S32768x512_0_1 : S32768x1.BroadcastsInDim S32768x512 (![0, 1] : Fin 2 → Fin S32768x512.rank)
  shapeCasts_S32768x512_S8x4096x512 : S32768x512.ShapeCasts S8x4096x512
  scatter_S64x512x512_S32768x2_S32768x512_1_01_01_1_wf : ScatterDims.WF S64x512x512 S32768x2 S32768x512 [1] [0, 1] [0, 1] 1
  dot_S256x512_S1792x512_S256x1792_1_1_0_0_n_n_wf : DotDims.WF S256x512 S1792x512 S256x1792 [1] [1] [0] [0] [] []
  dot_S256x1792_S512x1792_S256x512_1_1_0_0_n_n_wf : DotDims.WF S256x1792 S512x1792 S256x512 [1] [1] [0] [0] [] []
  dot_S256x512_S512x512_S256x512_1_1_0_0_n_n_wf : DotDims.WF S256x512 S512x512 S256x512 [1] [1] [0] [0] [] []
  gather_S64x512x512_S32768x2_S32768x512_1_01_n_n_01_1_11512_wf : GatherDims.WF S64x512x512 S32768x2 S32768x512 [1] [0, 1] [] [0, 1] [] 1 ![1, 1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S64x512x512.size a
  hwx0_0 : ∀ i : grid0.Coords, EltTy.bits .f32 = 32 ∨ (Rect.block (s := S64x512x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1792x512.size a ≤ S64x1792x512.size a
  hwx0_1 : ∀ i : grid0.Coords, EltTy.bits .f32 = 32 ∨ (Rect.block (s := S64x1792x512) S1x1792x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S64x512x512.size a
  hwx0_2 : ∀ i : grid0.Coords, EltTy.bits .f32 = 32 ∨ (Rect.block (s := S64x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1792.size a ≤ S64x512x1792.size a
  hwx0_3 : ∀ i : grid0.Coords, EltTy.bits .f32 = 32 ∨ (Rect.block (s := S64x512x1792) S1x512x1792.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x512.size a ≤ S64x512x512.size a
  hwx0_4 : ∀ i : grid0.Coords, EltTy.bits .f32 = 32 ∨ (Rect.block (s := S64x512x512) S1x256x512.size (cc0_transform_4 i) (hinb0_4 i)).WholeWords (EltTy.packing .f32)

variable [Facts₀]

def scatter_S64x512x512_S32768x2_S32768x512_1_01_01_1 : ScatterDims S64x512x512 S32768x2 S32768x512 where
  updateWindowDims := [1]
  insertedWindowDims := [0, 1]
  scatterDimsToOperandDims := [0, 1]
  indexVectorDim := 1
  wf := scatter_S64x512x512_S32768x2_S32768x512_1_01_01_1_wf
def dot_S256x512_S1792x512_S256x1792_1_1_0_0_n_n : DotDims S256x512 S1792x512 S256x1792 where
  lhsContracting := [1]
  rhsContracting := [1]
  lhsNonContracting := [0]
  rhsNonContracting := [0]
  lhsBatch := []
  rhsBatch := []
  wf := dot_S256x512_S1792x512_S256x1792_1_1_0_0_n_n_wf
def dot_S256x1792_S512x1792_S256x512_1_1_0_0_n_n : DotDims S256x1792 S512x1792 S256x512 where
  lhsContracting := [1]
  rhsContracting := [1]
  lhsNonContracting := [0]
  rhsNonContracting := [0]
  lhsBatch := []
  rhsBatch := []
  wf := dot_S256x1792_S512x1792_S256x512_1_1_0_0_n_n_wf
def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf
def gather_S64x512x512_S32768x2_S32768x512_1_01_n_n_01_1_11512 : GatherDims S64x512x512 S32768x2 S32768x512 where
  offsetDims := [1]
  collapsedSliceDims := [0, 1]
  operandBatchingDims := []
  startIndicesBatchingDims := []
  startIndexMap := [0, 1]
  indexVectorDim := 1
  sliceSizes := ![1, 1, 512]
  wf := gather_S64x512x512_S32768x2_S32768x512_1_01_n_n_01_1_11512_wf

abbrev win0_0 : Pipeline.Window sig grid0 :=
  Pipeline.Window.ofSpec (Memref.whole main_v27) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1792x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x512x1792.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x4096 : Shape := ⟨2, ![8, 4096]⟩
abbrev S64x1792x512 : Shape := ⟨3, ![64, 1792, 512]⟩
abbrev S64x512x512 : Shape := ⟨3, ![64, 512, 512]⟩
abbrev S64x512x1792 : Shape := ⟨3, ![64, 512, 1792]⟩
abbrev S32768 : Shape := ⟨1, ![32768]⟩
abbrev S_ : Shape := ⟨0, ![]⟩
abbrev S32768x1 : Shape := ⟨2, ![32768, 1]⟩
abbrev S1x64 : Shape := ⟨2, ![1, 64]⟩
abbrev S32768x64 : Shape := ⟨2, ![32768, 64]⟩
abbrev S32768x512 : Shape := ⟨2, ![32768, 512]⟩
abbrev S32768x2 : Shape := ⟨2, ![32768, 2]⟩

abbrev nBuf : Space → Nat
  | .hbm => 135
  | .vmem => 0
  | .smem => 0
  | _ => 0

abbrev hbmTy0_0 (i : Nat) : BufTy := match i % 128 with
  | 0 => ⟨S8x4096x512, .f32⟩
  | 1 => ⟨S8x4096, .i32⟩
  | 2 => ⟨S64x1792x512, .f32⟩
  | 3 => ⟨S64x512x512, .f32⟩
  | 4 => ⟨S64x512x1792, .f32⟩
  | 5 => ⟨S32768, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S32768, .i32⟩
  | 13 => ⟨S32768, .i32⟩
  | 14 => ⟨S_, .i32⟩
  | 15 => ⟨S32768, .i32⟩
  | 16 => ⟨S32768, .i1⟩
  | 17 => ⟨S_, .i32⟩
  | 18 => ⟨S32768, .i32⟩
  | 19 => ⟨S32768, .i1⟩
  | 20 => ⟨S_, .i32⟩
  | 21 => ⟨S_, .i1⟩
  | 22 => ⟨S32768, .i1⟩
  | 23 => ⟨S32768, .i1⟩
  | 24 => ⟨S32768, .i1⟩
  | 25 => ⟨S32768, .i32⟩
  | 26 => ⟨S32768, .i32⟩
  | 27 => ⟨S32768, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S32768, .i32⟩
  | 35 => ⟨S32768, .i32⟩
  | 36 => ⟨S_, .i32⟩
  | 37 => ⟨S32768, .i32⟩
  | 38 => ⟨S32768, .i1⟩
  | 39 => ⟨S_, .i32⟩
  | 40 => ⟨S32768, .i32⟩
  | 41 => ⟨S32768, .i1⟩
  | 42 => ⟨S_, .i32⟩
  | 43 => ⟨S_, .i1⟩
  | 44 => ⟨S32768, .i1⟩
  | 45 => ⟨S32768, .i1⟩
  | 46 => ⟨S32768, .i1⟩
  | 47 => ⟨S32768, .i32⟩
  | 48 => ⟨S32768, .i32⟩
  | 49 => ⟨S32768, .i32⟩
  | 50 => ⟨S32768x1, .i32⟩
  | 51 => ⟨S1x64, .i32⟩
  | 52 => ⟨S32768x64, .i32⟩
  | 53 => ⟨S32768x64, .i32⟩
  | 54 => ⟨S32768x64, .i1⟩
  | 55 => ⟨S32768x64, .i32⟩
  | 56 => ⟨S_, .i32⟩
  | 57 => ⟨S_, .i32⟩
  | 58 => ⟨S32768x64, .i32⟩
  | 59 => ⟨S32768x64, .i32⟩
  | 60 => ⟨S_, .i32⟩
  | 61 => ⟨S32768, .i32⟩
  | 62 => ⟨S_, .i32⟩
  | 63 => ⟨S32768, .i32⟩
  | 64 => ⟨S32768, .i32⟩
  | 65 => ⟨S_, .i32⟩
  | 66 => ⟨S32768, .i32⟩
  | 67 => ⟨S32768, .i1⟩
  | 68 => ⟨S32768x512, .f32⟩
  | 69 => ⟨S_, .i32⟩
  | 70 => ⟨S_, .i32⟩
  | 71 => ⟨S32768, .i32⟩
  | 72 => ⟨S32768, .i32⟩
  | 73 => ⟨S_, .f32⟩
  | 74 => ⟨S64x512x512, .f32⟩
  | 75 => ⟨S_, .i32⟩
  | 76 => ⟨S32768, .i32⟩
  | 77 => ⟨S32768, .i1⟩
  | 78 => ⟨S_, .i32⟩
  | 79 => ⟨S32768, .i32⟩
  | 80 => ⟨S32768, .i32⟩
  | 81 => ⟨S32768, .i32⟩
  | 82 => ⟨S_, .i32⟩
  | 83 => ⟨S32768, .i32⟩
  | 84 => ⟨S32768, .i1⟩
  | 85 => ⟨S_, .i32⟩
  | 86 => ⟨S32768, .i32⟩
  | 87 => ⟨S32768, .i32⟩
  | 88 => ⟨S32768, .i32⟩
  | 89 => ⟨S32768x1, .i32⟩
  | 90 => ⟨S32768x1, .i32⟩
  | 91 => ⟨S32768x2, .i32⟩
  | 92 => ⟨S64x512x512, .f32⟩
  | 93 => ⟨S64x512x1792, .f32⟩
  | 94 => ⟨S_, .f32⟩
  | 95 => ⟨S64x512x1792, .f32⟩
  | 96 => ⟨S64x512x1792, .f32⟩
  | 97 => ⟨S64x512x1792, .f32⟩
  | 98 => ⟨S64x512x512, .f32⟩
  | 99 => ⟨S64x512x512, .f32⟩
  | 100 => ⟨S64x512x512, .f32⟩
  | 101 => ⟨S64x512x512, .f32⟩
  | 102 => ⟨S_, .f32⟩
  | 103 => ⟨S64x512x512, .f32⟩
  | 104 => ⟨S64x512x512, .f32⟩
  | 105 => ⟨S_, .f32⟩
  | 106 => ⟨S64x512x512, .f32⟩
  | 107 => ⟨S64x512x512, .f32⟩
  | 108 => ⟨S64x512x512, .f32⟩
  | 109 => ⟨S_, .i32⟩
  | 110 => ⟨S32768, .i32⟩
  | 111 => ⟨S32768, .i32⟩
  | 112 => ⟨S_, .i32⟩
  | 113 => ⟨S32768, .i32⟩
  | 114 => ⟨S32768, .i1⟩
  | 115 => ⟨S_, .i32⟩
  | 116 => ⟨S32768, .i32⟩
  | 117 => ⟨S32768, .i32⟩
  | 118 => ⟨S32768, .i32⟩
  | 119 => ⟨S_, .i32⟩
  | 120 => ⟨S32768, .i32⟩
  | 121 => ⟨S32768, .i1⟩
  | 122 => ⟨S_, .i32⟩
  | 123 => ⟨S32768, .i32⟩
  | 124 => ⟨S32768, .i32⟩
  | 125 => ⟨S32768, .i32⟩
  | 126 => ⟨S32768x1, .i32⟩
  | 127 => ⟨S32768x1, .i32⟩
  | _ => ⟨S8x4096x512, .f32⟩

abbrev hbmTy0_1 (i : Nat) : BufTy := match i % 128 with
  | 0 => ⟨S32768x2, .i32⟩
  | 1 => ⟨S32768x512, .f32⟩
  | 2 => ⟨S32768x1, .i1⟩
  | 3 => ⟨S32768x1, .f32⟩
  | 4 => ⟨S32768x512, .f32⟩
  | 5 => ⟨S32768x512, .f32⟩
  | 6 => ⟨S8x4096x512, .f32⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v2 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v3 : Ref sig .tc := ⟨.hbm, 55, rfl⟩
abbrev main_call3_call0_c : Ref sig .tc := ⟨.hbm, 56, rfl⟩
abbrev main_call3_call0_v0 : Ref sig .tc := ⟨.hbm, 57, rfl⟩
abbrev main_v4 : Ref sig .tc := ⟨.hbm, 58, rfl⟩
abbrev main_v5 : Ref sig .tc := ⟨.hbm, 59, rfl⟩
abbrev main_c_1 : Ref sig .tc := ⟨.hbm, 60, rfl⟩
abbrev main_v6 : Ref sig .tc := ⟨.hbm, 61, rfl⟩
abbrev main_c_2 : Ref sig .tc := ⟨.hbm, 62, rfl⟩
abbrev main_v7 : Ref sig .tc := ⟨.hbm, 63, rfl⟩
abbrev main_v8 : Ref sig .tc := ⟨.hbm, 64, rfl⟩
abbrev main_c_3 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_c_4 : Ref sig .tc := ⟨.hbm, 69, rfl⟩
abbrev main_call4_v0 : Ref sig .tc := ⟨.hbm, 70, rfl⟩
abbrev main_call4_v1 : Ref sig .tc := ⟨.hbm, 71, rfl⟩
abbrev main_v12 : Ref sig .tc := ⟨.hbm, 72, rfl⟩
abbrev main_cst : Ref sig .tc := ⟨.hbm, 73, rfl⟩
abbrev main_v13 : Ref sig .tc := ⟨.hbm, 74, rfl⟩
abbrev main_c_5 : Ref sig .tc := ⟨.hbm, 75, rfl⟩
abbrev main_v14 : Ref sig .tc := ⟨.hbm, 76, rfl⟩
abbrev main_v15 : Ref sig .tc := ⟨.hbm, 77, rfl⟩
abbrev main_c_6 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_c_7 : Ref sig .tc := ⟨.hbm, 82, rfl⟩
abbrev main_v19 : Ref sig .tc := ⟨.hbm, 83, rfl⟩
abbrev main_v20 : Ref sig .tc := ⟨.hbm, 84, rfl⟩
abbrev main_c_8 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_call5_cst : Ref sig .tc := ⟨.hbm, 94, rfl⟩
abbrev main_call5_v0 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_cst_9 : Ref sig .tc := ⟨.hbm, 102, rfl⟩
abbrev main_v35 : Ref sig .tc := ⟨.hbm, 103, rfl⟩
abbrev main_v36 : Ref sig .tc := ⟨.hbm, 104, rfl⟩
abbrev main_cst_10 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_c_11 : Ref sig .tc := ⟨.hbm, 109, rfl⟩
abbrev main_v40 : Ref sig .tc := ⟨.hbm, 110, rfl⟩
abbrev main_v41 : Ref sig .tc := ⟨.hbm, 111, rfl⟩
abbrev main_c_12 : Ref sig .tc := ⟨.hbm, 112, rfl⟩
abbrev main_v42 : Ref sig .tc := ⟨.hbm, 113, rfl⟩
abbrev main_v43 : Ref sig .tc := ⟨.hbm, 114, rfl⟩
abbrev main_c_13 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_c_14 : Ref sig .tc := ⟨.hbm, 119, rfl⟩
abbrev main_v47 : Ref sig .tc := ⟨.hbm, 120, rfl⟩
abbrev main_v48 : Ref sig .tc := ⟨.hbm, 121, rfl⟩
abbrev main_c_15 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩

abbrev nD : Nat := 1
abbrev τ : Topo := Topo.v7x

variable {F : FTy → Type} [FloatOps F]

class Facts₀ : Prop where
  shapeCasts_S8x4096_S32768 : S8x4096.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  bcast_S1x64_S32768x64_0_1 : S1x64.BroadcastsInDim S32768x64 (![0, 1] : Fin 2 → Fin S32768x64.rank)
  natLt_1_32 : 1 < 32
  bcast_S_S_ : S_.BroadcastsInDim S_ (![] : Fin 0 → Fin S_.rank)
  reduceWindows_S32768x64_S32768x64_w32768s1p32767_0_w1s1p0_0 : S32768x64.ReduceWindows (![32768, 1] : Fin 2 → Nat) ![1, 1] ![32767, 0] ![0, 0] S32768x64
  h_S_ : 0 < S_.numel
  reducesTo_S32768x64_S32768_d1 : S32768x64.ReducesTo [1] S32768
  shapeCasts_S8x4096x512_S32768x512 : S8x4096x512.ShapeCasts S32768x512
  bcast_S_S64x512x512 : S_.BroadcastsInDim S64x512x512 (![] : Fin 0 → Fin S64x512x512.rank)
  concatenates_S32768x1_S32768x1_S32768x2_d1 : Shape.Concatenates [S32768x1, S32768x1] S32768x2 1
  bcast_S_S64x512x1792 : S_.BroadcastsInDim S64x512x1792 (![] : Fin 0 → Fin S64x512x1792.rank)
  bcast_S32768x1_S32768x512_0_1 : S32768x1.BroadcastsInDim S32768x512 (![0, 1] : Fin 2 → Fin S32768x512.rank)
  shapeCasts_S32768x512_S8x4096x512 : S32768x512.ShapeCasts S8x4096x512
  scatter_S64x512x512_S32768x2_S32768x512_1_01_01_1_wf : ScatterDims.WF S64x512x512 S32768x2 S32768x512 [1] [0, 1] [0, 1] 1
  dot_S64x512x512_S64x1792x512_S64x512x1792_2_2_1_1_0_0_wf : DotDims.WF S64x512x512 S64x1792x512 S64x512x1792 [2] [2] [1] [1] [0] [0]
  dot_S64x512x1792_S64x512x1792_S64x512x512_2_2_1_1_0_0_wf : DotDims.WF S64x512x1792 S64x512x1792 S64x512x512 [2] [2] [1] [1] [0] [0]
  dot_S64x512x512_S64x512x512_S64x512x512_2_2_1_1_0_0_wf : DotDims.WF S64x512x512 S64x512x512 S64x512x512 [2] [2] [1] [1] [0] [0]
  gather_S64x512x512_S32768x2_S32768x512_1_01_n_n_01_1_11512_wf : GatherDims.WF S64x512x512 S32768x2 S32768x512 [1] [0, 1] [] [0, 1] [] 1 ![1, 1, 512]

variable [Facts₀]

def scatter_S64x512x512_S32768x2_S32768x512_1_01_01_1 : ScatterDims S64x512x512 S32768x2 S32768x512 where
  updateWindowDims := [1]
  insertedWindowDims := [0, 1]
  scatterDimsToOperandDims := [0, 1]
  indexVectorDim := 1
  wf := scatter_S64x512x512_S32768x2_S32768x512_1_01_01_1_wf
def dot_S64x512x512_S64x1792x512_S64x512x1792_2_2_1_1_0_0 : DotDims S64x512x512 S64x1792x512 S64x512x1792 where
  lhsContracting := [2]
  rhsContracting := [2]
  lhsNonContracting := [1]
  rhsNonContracting := [1]
  lhsBatch := [0]
  rhsBatch := [0]
  wf := dot_S64x512x512_S64x1792x512_S64x512x1792_2_2_1_1_0_0_wf
def dot_S64x512x1792_S64x512x1792_S64x512x512_2_2_1_1_0_0 : DotDims S64x512x1792 S64x512x1792 S64x512x512 where
  lhsContracting := [2]
  rhsContracting := [2]
  lhsNonContracting := [1]
  rhsNonContracting := [1]
  lhsBatch := [0]
  rhsBatch := [0]
  wf := dot_S64x512x1792_S64x512x1792_S64x512x512_2_2_1_1_0_0_wf
def dot_S64x512x512_S64x512x512_S64x512x512_2_2_1_1_0_0 : DotDims S64x512x512 S64x512x512 S64x512x512 where
  lhsContracting := [2]
  rhsContracting := [2]
  lhsNonContracting := [1]
  rhsNonContracting := [1]
  lhsBatch := [0]
  rhsBatch := [0]
  wf := dot_S64x512x512_S64x512x512_S64x512x512_2_2_1_1_0_0_wf
def gather_S64x512x512_S32768x2_S32768x512_1_01_n_n_01_1_11512 : GatherDims S64x512x512 S32768x2 S32768x512 where
  offsetDims := [1]
  collapsedSliceDims := [0, 1]
  operandBatchingDims := []
  startIndicesBatchingDims := []
  startIndexMap := [0, 1]
  indexVectorDim := 1
  sliceSizes := ![1, 1, 512]
  wf := gather_S64x512x512_S32768x2_S32768x512_1_01_n_n_01_1_11512_wf

class Facts : Prop extends Facts₀ where

variable [Facts]
-- ==== Proof.Spec.lean ====
/-
  The routing arithmetic shared by the kernel's program and the reference, as pure functions of the argument
  arrays: both programs route token s to expert e(s) = (id(s) mod 5099) mod 64, give it the slot
  p(s) = #{s' ≤ s : e(s') = e(s)} - 1 inside that expert, keep it when p(s) < 512, scatter the kept rows of x into
  a zero [64, 512, 512] array, run the per-expert feed-forward network on that array, and gather each token's
  row back (a dropped token reads slot 511 and is multiplied by 0). Only the feed-forward network differs between
  the two programs; everything else is the SAME chain of host operations, named here once and never opened.
-/
import Idealize.ShloMosaic.PureOps.Ideal
import Idealize.ShloMosaic.PureOps.Ideal.Laws
import Idealize.ShloMosaic.Lib.StableHlo.Run
import Idealize.ShloMosaic.Lib.ValueIdx

noncomputable section

namespace Cert.Moe

open Idealize.ShloMosaic Idealize.SL.Sem

/-! ## Shapes and their side conditions -/

abbrev S8x4096x512 : Shape := ⟨3, ![8, 4096, 512]⟩
abbrev S8x4096 : Shape := ⟨2, ![8, 4096]⟩
abbrev S64x1792x512 : Shape := ⟨3, ![64, 1792, 512]⟩
abbrev S64x512x512 : Shape := ⟨3, ![64, 512, 512]⟩
abbrev S64x512x1792 : Shape := ⟨3, ![64, 512, 1792]⟩
abbrev S32768 : Shape := ⟨1, ![32768]⟩
abbrev S_ : Shape := ⟨0, ![]⟩
abbrev S32768x1 : Shape := ⟨2, ![32768, 1]⟩
abbrev S1x64 : Shape := ⟨2, ![1, 64]⟩
abbrev S32768x64 : Shape := ⟨2, ![32768, 64]⟩
abbrev S32768x512 : Shape := ⟨2, ![32768, 512]⟩
abbrev S32768x2 : Shape := ⟨2, ![32768, 2]⟩

theorem shapeCasts_S8x4096_S32768 : S8x4096.ShapeCasts S32768 := by decide
theorem bcast_S_S32768 : S_.BroadcastsInDim S32768 (![] : Fin 0 → Fin S32768.rank) := by decide
theorem bcast_S32768_S32768x1_0 : S32768.BroadcastsInDim S32768x1 (![0] : Fin 1 → Fin S32768x1.rank) := by decide
theorem bcast_S32768x1_S32768x64_0_1 : S32768x1.BroadcastsInDim S32768x64 (![0, 1] : Fin 2 → Fin S32768x64.rank) := by decide
theorem bcast_S1x64_S32768x64_0_1 : S1x64.BroadcastsInDim S32768x64 (![0, 1] : Fin 2 → Fin S32768x64.rank) := by decide
theorem natLt_1_32 : 1 < 32 := by decide
theorem bcast_S_S_ : S_.BroadcastsInDim S_ (![] : Fin 0 → Fin S_.rank) := by decide
theorem reduceWindows_cumsum : S32768x64.ReduceWindows (![32768, 1] : Fin 2 → Nat) ![1, 1] ![32767, 0] ![0, 0] S32768x64 := by decide
theorem h_S_ : 0 < S_.numel := by decide
theorem reducesTo_S32768x64_S32768_d1 : S32768x64.ReducesTo [1] S32768 := by decide
theorem shapeCasts_S8x4096x512_S32768x512 : S8x4096x512.ShapeCasts S32768x512 := by decide
theorem bcast_S_S64x512x512 : S_.BroadcastsInDim S64x512x512 (![] : Fin 0 → Fin S64x512x512.rank) := by decide
theorem concatenates_pair : Shape.Concatenates [S32768x1, S32768x1] S32768x2 1 := by decide
theorem bcast_S_S64x512x1792 : S_.BroadcastsInDim S64x512x1792 (![] : Fin 0 → Fin S64x512x1792.rank) := by decide
theorem bcast_S32768x1_S32768x512_0_1 : S32768x1.BroadcastsInDim S32768x512 (![0, 1] : Fin 2 → Fin S32768x512.rank) := by decide
theorem shapeCasts_S32768x512_S8x4096x512 : S32768x512.ShapeCasts S8x4096x512 := by decide
theorem scatterD_wf : ScatterDims.WF S64x512x512 S32768x2 S32768x512 [1] [0, 1] [0, 1] 1 := by decide
theorem dotK_wf : DotDims.WF S64x512x512 S64x1792x512 S64x512x1792 [2] [2] [1] [1] [0] [0] := by decide
theorem dotV_wf : DotDims.WF S64x512x1792 S64x512x1792 S64x512x512 [2] [2] [1] [1] [0] [0] := by decide
theorem dotR_wf : DotDims.WF S64x512x512 S64x512x512 S64x512x512 [2] [2] [1] [1] [0] [0] := by decide
theorem gatherD_wf : GatherDims.WF S64x512x512 S32768x2 S32768x512 [1] [0, 1] [] [0, 1] [] 1 ![1, 1, 512] := by decide

/-- The scatter of token rows into expert slots: index vector (expert, slot), one row of 512 per token. -/
def scatterD : ScatterDims S64x512x512 S32768x2 S32768x512 where
  updateWindowDims := [1]
  insertedWindowDims := [0, 1]
  scatterDimsToOperandDims := [0, 1]
  indexVectorDim := 1
  wf := scatterD_wf
/-- The gather of each token's row back from its expert slot. -/
def gatherD : GatherDims S64x512x512 S32768x2 S32768x512 where
  offsetDims := [1]
  collapsedSliceDims := [0, 1]
  operandBatchingDims := []
  startIndicesBatchingDims := []
  startIndexMap := [0, 1]
  indexVectorDim := 1
  sliceSizes := ![1, 1, 512]
  wf := gatherD_wf
/-- The reference's three batched products: batch axis the expert, contraction over the last axis of both operands. -/
def dotK : DotDims S64x512x512 S64x1792x512 S64x512x1792 where
  lhsContracting := [2]
  rhsContracting := [2]
  lhsNonContracting := [1]
  rhsNonContracting := [1]
  lhsBatch := [0]
  rhsBatch := [0]
  wf := dotK_wf
def dotV : DotDims S64x512x1792 S64x512x1792 S64x512x512 where
  lhsContracting := [2]
  rhsContracting := [2]
  lhsNonContracting := [1]
  rhsNonContracting := [1]
  lhsBatch := [0]
  rhsBatch := [0]
  wf := dotV_wf
def dotR : DotDims S64x512x512 S64x512x512 S64x512x512 where
  lhsContracting := [2]
  rhsContracting := [2]
  lhsNonContracting := [1]
  rhsNonContracting := [1]
  lhsBatch := [0]
  rhsBatch := [0]
  wf := dotR_wf

variable {F : FTy → Type} [FloatOps F]

/-! ## The routing chain -/

/-- jnp's floor-style remainder of every entry of x by the scalar c (c = 0 is read as 1): the truncating
    remainder, shifted by the divisor where its sign differs from the divisor's and it is not zero. -/
def remainderFn (x : (⟨S32768, .i32⟩ : BufTy).Contents (Elt F)) (c : (⟨S_, .i32⟩ : BufTy).Contents (Elt F)) :
    (⟨S32768, .i32⟩ : BufTy).Contents (Elt F) :=
  have v0 : (⟨S_, .i32⟩ : BufTy).Contents (Elt F) := id c
  have c0 : (⟨S_, .i32⟩ : BufTy).Contents (Elt F) := constantI S_ 32 0#32
  have v1 : (⟨S_, .i1⟩ : BufTy).Contents (Elt F) := cmpi .eq v0 c0
  have c_0 : (⟨S_, .i32⟩ : BufTy).Contents (Elt F) := constantI S_ 32 1#32
  have v2 : (⟨S_, .i32⟩ : BufTy).Contents (Elt F) := select v1 c_0 v0
  have v3 : (⟨S32768, .i32⟩ : BufTy).Contents (Elt F) := broadcastInDim S32768 ![] bcast_S_S32768 v2
  have v4 : (⟨S32768, .i32⟩ : BufTy).Contents (Elt F) := Host.remsi x v3
  have c_1 : (⟨S_, .i32⟩ : BufTy).Contents (Elt F) := constantI S_ 32 0#32
  have v5 : (⟨S32768, .i32⟩ : BufTy).Contents (Elt F) := broadcastInDim S32768 ![] bcast_S_S32768 c_1
  have v6 : (⟨S32768, .i1⟩ : BufTy).Contents (Elt F) := cmpi .ne v4 v5
  have c_2 : (⟨S_, .i32⟩ : BufTy).Contents (Elt F) := constantI S_ 32 0#32
  have v7 : (⟨S32768, .i32⟩ : BufTy).Contents (Elt F) := broadcastInDim S32768 ![] bcast_S_S32768 c_2
  have v8 : (⟨S32768, .i1⟩ : BufTy).Contents (Elt F) := cmpi .slt v4 v7
  have c_3 : (⟨S_, .i32⟩ : BufTy).Contents (Elt F) := constantI S_ 32 0#32
  have v9 : (⟨S_, .i1⟩ : BufTy).Contents (Elt F) := cmpi .slt v2 c_3
  have v10 : (⟨S32768, .i1⟩ : BufTy).Contents (Elt F) := broadcastInDim S32768 ![] bcast_S_S32768 v9
  have v11 : (⟨S32768, .i1⟩ : BufTy).Contents (Elt F) := cmpi .ne v8 v10
  have v12 : (⟨S32768, .i1⟩ : BufTy).Contents (Elt F) := andi v11 v6
  have v13 : (⟨S32768, .i32⟩ : BufTy).Contents (Elt F) := broadcastInDim S32768 ![] bcast_S_S32768 v2
  have v14 : (⟨S32768, .i32⟩ : BufTy).Contents (Elt F) := addi v4 v13
  select v12 v14 v4

/-- The expert of every token: (id mod 5099) mod 64. -/
def route (a1 : (⟨S8x4096, .i32⟩ : BufTy).Contents (Elt F)) : (⟨S32768, .i32⟩ : BufTy).Contents (Elt F) :=
  remainderFn (F := F) (remainderFn (F := F) (shapeCast S32768 a1 shapeCasts_S8x4096_S32768) (constantI S_ 32 5099#32)) (constantI S_ 32 64#32)

/-- The one-hot rows of the experts: [32768, 64] of zeros and ones. -/
def oneHot (e : (⟨S32768, .i32⟩ : BufTy).Contents (Elt F)) : (⟨S32768x64, .i32⟩ : BufTy).Contents (Elt F) :=
  have v0 : (⟨S32768x1, .i32⟩ : BufTy).Contents (Elt F) := broadcastInDim S32768x1 ![0] bcast_S32768_S32768x1_0 e
  have v1 : (⟨S1x64, .i32⟩ : BufTy).Contents (Elt F) := iotaInDim S1x64 32 1
  have v2 : (⟨S32768x64, .i32⟩ : BufTy).Contents (Elt F) := broadcastInDim S32768x64 ![0, 1] bcast_S32768x1_S32768x64_0_1 v0
  have v3 : (⟨S32768x64, .i32⟩ : BufTy).Contents (Elt F) := broadcastInDim S32768x64 ![0, 1] bcast_S1x64_S32768x64_0_1 v1
  have v4 : (⟨S32768x64, .i1⟩ : BufTy).Contents (Elt F) := cmpi .eq v2 v3
  extui 32 v4 natLt_1_32

/-- The slot of every token inside its expert: the running count of its expert's one-hot column, minus one. -/
def slot (e : (⟨S32768, .i32⟩ : BufTy).Contents (Elt F)) : (⟨S32768, .i32⟩ : BufTy).Contents (Elt F) :=
  have v3 : (⟨S32768x64, .i32⟩ : BufTy).Contents (Elt F) := oneHot (F := F) e
  have c : (⟨S_, .i32⟩ : BufTy).Contents (Elt F) := constantI S_ 32 0#32
  have w0 : (⟨S_, .i32⟩ : BufTy).Contents (Elt F) := broadcastInDim S_ ![] bcast_S_S_ c
  have v4 : (⟨S32768x64, .i32⟩ : BufTy).Contents (Elt F) :=
    Host.reduceWindow IntOp.addi ![32768, 1] ![1, 1] ![32767, 0] ![0, 0] v3 w0 reduceWindows_cumsum h_S_
  have v5 : (⟨S32768x64, .i32⟩ : BufTy).Contents (Elt F) := muli v4 v3
  have c_1 : (⟨S_, .i32⟩ : BufTy).Contents (Elt F) := constantI S_ 32 0#32
  have v6 : (⟨S32768, .i32⟩ : BufTy).Contents (Elt F) := Host.reduce IntOp.addi v5 c_1 reducesTo_S32768x64_S32768_d1 h_S_
  have c_2 : (⟨S_, .i32⟩ : BufTy).Contents (Elt F) := constantI S_ 32 1#32
  have v7 : (⟨S32768, .i32⟩ : BufTy).Contents (Elt F) := broadcastInDim S32768 ![] bcast_S_S32768 c_2
  subi v6 v7

/-- A token is kept when its slot is below the capacity 512. -/
def keep (p : (⟨S32768, .i32⟩ : BufTy).Contents (Elt F)) : (⟨S32768, .i1⟩ : BufTy).Contents (Elt F) :=
  have c_3 : (⟨S_, .i32⟩ : BufTy).Contents (Elt F) := constantI S_ 32 512#32
  have v9 : (⟨S32768, .i32⟩ : BufTy).Contents (Elt F) := broadcastInDim S32768 ![] bcast_S_S32768 c_3
  cmpi .slt p v9

/-- A negative index wraps once by the axis extent n (jnp's indexing convention). -/
def wrapIdx (n : BitVec 32) (v : (⟨S32768, .i32⟩ : BufTy).Contents (Elt F)) : (⟨S32768, .i32⟩ : BufTy).Contents (Elt F) :=
  have c0 : (⟨S_, .i32⟩ : BufTy).Contents (Elt F) := constantI S_ 32 0#32
  have z : (⟨S32768, .i32⟩ : BufTy).Contents (Elt F) := broadcastInDim S32768 ![] bcast_S_S32768 c0
  have lt : (⟨S32768, .i1⟩ : BufTy).Contents (Elt F) := cmpi .slt v z
  have cn : (⟨S_, .i32⟩ : BufTy).Contents (Elt F) := constantI S_ 32 n
  have bn : (⟨S32768, .i32⟩ : BufTy).Contents (Elt F) := broadcastInDim S32768 ![] bcast_S_S32768 cn
  have sh : (⟨S32768, .i32⟩ : BufTy).Contents (Elt F) := addi v bn
  select lt sh v

/-- The index pairs (expert, slot) of all tokens: [32768, 2]. -/
def idxPairs (e q : (⟨S32768, .i32⟩ : BufTy).Contents (Elt F)) : (⟨S32768x2, .i32⟩ : BufTy).Contents (Elt F) :=
  have a : (⟨S32768x1, .i32⟩ : BufTy).Contents (Elt F) := broadcastInDim S32768x1 ![0] bcast_S32768_S32768x1_0 (wrapIdx (F := F) 64#32 e)
  have b : (⟨S32768x1, .i32⟩ : BufTy).Contents (Elt F) := broadcastInDim S32768x1 ![0] bcast_S32768_S32768x1_0 (wrapIdx (F := F) 512#32 q)
  concatenate S32768x2 1 [⟨S32768x1, a⟩, ⟨S32768x1, b⟩] concatenates_pair

/-- The dispatched array [64, 512, 512]: zero, with token s's row of x written at (e(s), p(s)) when kept
    (a dropped token's slot is 512, out of range, and its update is dropped by the scatter). -/
def dispatch (a0 : (⟨S8x4096x512, .f32⟩ : BufTy).Contents (Elt F)) (e p : (⟨S32768, .i32⟩ : BufTy).Contents (Elt F))
    (k : (⟨S32768, .i1⟩ : BufTy).Contents (Elt F)) : (⟨S64x512x512, .f32⟩ : BufTy).Contents (Elt F) :=
  have v11 : (⟨S32768x512, .f32⟩ : BufTy).Contents (Elt F) := shapeCast S32768x512 a0 shapeCasts_S8x4096x512_S32768x512
  have c_4 : (⟨S_, .i32⟩ : BufTy).Contents (Elt F) := constantI S_ 32 512#32
  have w0 : (⟨S_, .i32⟩ : BufTy).Contents (Elt F) := id c_4
  have w1 : (⟨S32768, .i32⟩ : BufTy).Contents (Elt F) := broadcastInDim S32768 ![] bcast_S_S32768 w0
  have v12 : (⟨S32768, .i32⟩ : BufTy).Contents (Elt F) := select k p w1
  have cst : (⟨S_, .f32⟩ : BufTy).Contents (Elt F) := constant S_ .f32 0x00000000#32
  have v13 : (⟨S64x512x512, .f32⟩ : BufTy).Contents (Elt F) := broadcastInDim S64x512x512 ![] bcast_S_S64x512x512 cst
  Host.scatter scatterD (fun _ b => b) v13 (idxPairs (F := F) e v12) v11

/-- The combine: each token reads its expert's row at slot min(p, 511), times 1 when kept and 0 when dropped. -/
def combine (e p : (⟨S32768, .i32⟩ : BufTy).Contents (Elt F)) (k : (⟨S32768, .i1⟩ : BufTy).Contents (Elt F))
    (y : (⟨S64x512x512, .f32⟩ : BufTy).Contents (Elt F)) : (⟨S8x4096x512, .f32⟩ : BufTy).Contents (Elt F) :=
  have c_9 : (⟨S_, .i32⟩ : BufTy).Contents (Elt F) := constantI S_ 32 511#32
  have v29 : (⟨S32768, .i32⟩ : BufTy).Contents (Elt F) := broadcastInDim S32768 ![] bcast_S_S32768 c_9
  have v30 : (⟨S32768, .i32⟩ : BufTy).Contents (Elt F) := minsi p v29
  have v44 : (⟨S32768x512, .f32⟩ : BufTy).Contents (Elt F) := Host.gather gatherD y (idxPairs (F := F) e v30)
  have v45 : (⟨S32768x1, .i1⟩ : BufTy).Contents (Elt F) := broadcastInDim S32768x1 ![0] bcast_S32768_S32768x1_0 k
  have v46 : (⟨S32768x1, .f32⟩ : BufTy).Contents (Elt F) := uitofp .f32 v45
  have v47 : (⟨S32768x512, .f32⟩ : BufTy).Contents (Elt F) := broadcastInDim S32768x512 ![0, 1] bcast_S32768x1_S32768x512_0_1 v46
  have v48 : (⟨S32768x512, .f32⟩ : BufTy).Contents (Elt F) := mulf v44 v47
  shapeCast S8x4096x512 v48 shapeCasts_S32768x512_S8x4096x512

/-! ## The reference's feed-forward network, as its host operations -/

/-- r · kv per expert, as the reference computes it: three batched products, relu, square, and the logistic
    spelt 1 / (1 + exp (-z)). -/
def ffnRef (D : (⟨S64x512x512, .f32⟩ : BufTy).Contents (Elt F)) (Wk : (⟨S64x1792x512, .f32⟩ : BufTy).Contents (Elt F))
    (Wr : (⟨S64x512x512, .f32⟩ : BufTy).Contents (Elt F)) (Wv : (⟨S64x512x1792, .f32⟩ : BufTy).Contents (Elt F)) :
    (⟨S64x512x512, .f32⟩ : BufTy).Contents (Elt F) :=
  have v28 : (⟨S64x512x1792, .f32⟩ : BufTy).Contents (Elt F) := Host.dotGeneral dotK none D Wk
  have cst : (⟨S_, .f32⟩ : BufTy).Contents (Elt F) := constant S_ .f32 0x00000000#32
  have z0 : (⟨S64x512x1792, .f32⟩ : BufTy).Contents (Elt F) := broadcastInDim S64x512x1792 ![] bcast_S_S64x512x1792 cst
  have v29 : (⟨S64x512x1792, .f32⟩ : BufTy).Contents (Elt F) := maximumf v28 z0
  have v30 : (⟨S64x512x1792, .f32⟩ : BufTy).Contents (Elt F) := mulf v29 v29
  have v31 : (⟨S64x512x512, .f32⟩ : BufTy).Contents (Elt F) := Host.dotGeneral dotV none v30 Wv
  have v32 : (⟨S64x512x512, .f32⟩ : BufTy).Contents (Elt F) := Host.dotGeneral dotR none D Wr
  have v33 : (⟨S64x512x512, .f32⟩ : BufTy).Contents (Elt F) := Host.negf v32
  have v34 : (⟨S64x512x512, .f32⟩ : BufTy).Contents (Elt F) := Host.exp v33
  have cst_9 : (⟨S_, .f32⟩ : BufTy).Contents (Elt F) := constant S_ .f32 0x3F800000#32
  have v35 : (⟨S64x512x512, .f32⟩ : BufTy).Contents (Elt F) := broadcastInDim S64x512x512 ![] bcast_S_S64x512x512 cst_9
  have v36 : (⟨S64x512x512, .f32⟩ : BufTy).Contents (Elt F) := addf v35 v34
  have cst_10 : (⟨S_, .f32⟩ : BufTy).Contents (Elt F) := constant S_ .f32 0x3F800000#32
  have v37 : (⟨S64x512x512, .f32⟩ : BufTy).Contents (Elt F) := broadcastInDim S64x512x512 ![] bcast_S_S64x512x512 cst_10
  have v38 : (⟨S64x512x512, .f32⟩ : BufTy).Contents (Elt F) := Host.divf v37 v36
  mulf v38 v31

/-! ## The feed-forward network index by index, on the extended reals -/

/-- Entry (e, c, g) of the expert output: logistic (∑_d D[e,c,d] · Wr[e,g,d]) times
    ∑_f (max (∑_d D[e,c,d] · Wk[e,f,d]) 0)² · Wv[e,g,f]. -/
def ffnAt (D : S64x512x512.Idx → EReal) (Wk : S64x1792x512.Idx → EReal) (Wr : S64x512x512.Idx → EReal)
    (Wv : S64x512x1792.Idx → EReal) (e : Fin 64) (c : Fin 512) (g : Fin 512) : EReal :=
  Ideal.logistic (∑ d : Fin 512, D (ValueIdx.ix3 e c d) * Wr (ValueIdx.ix3 e g d))
    * ∑ f : Fin 1792, (max (∑ d : Fin 512, D (ValueIdx.ix3 e c d) * Wk (ValueIdx.ix3 e f d)) 0
        * max (∑ d : Fin 512, D (ValueIdx.ix3 e c d) * Wk (ValueIdx.ix3 e f d)) 0) * Wv (ValueIdx.ix3 e g f)

/-- The whole expert output [64, 512, 512]. -/
def ffn (D : S64x512x512.Idx → EReal) (Wk : S64x1792x512.Idx → EReal) (Wr : S64x512x512.Idx → EReal)
    (Wv : S64x512x1792.Idx → EReal) : S64x512x512.Idx → EReal :=
  fun i => ffnAt D Wk Wr Wv (i 0) (i 1) (i 2)

end Cert.Moe

end
-- ==== Proof.Result.lean ====
/-
  The function of the five argument arrays both programs compute: route the tokens, dispatch the kept rows,
  apply the feed-forward network expert by expert, combine.
-/
import proofs.«108423_j69355131896109_1_alg».proof.Proof.Spec

noncomputable section

namespace Cert.Moe

open Idealize.ShloMosaic Idealize.SL.Sem

/-- The result array [8, 4096, 512] on the extended reals. -/
def result (a0 : (⟨S8x4096x512, .f32⟩ : BufTy).Contents (Elt Ideal)) (a1 : (⟨S8x4096, .i32⟩ : BufTy).Contents (Elt Ideal))
    (a2 : (⟨S64x1792x512, .f32⟩ : BufTy).Contents (Elt Ideal)) (a3 : (⟨S64x512x512, .f32⟩ : BufTy).Contents (Elt Ideal))
    (a4 : (⟨S64x512x1792, .f32⟩ : BufTy).Contents (Elt Ideal)) : (⟨S8x4096x512, .f32⟩ : BufTy).Contents (Elt Ideal) :=
  combine (F := Ideal) (route (F := Ideal) a1) (slot (F := Ideal) (route (F := Ideal) a1))
    (keep (F := Ideal) (slot (F := Ideal) (route (F := Ideal) a1)))
    (ffn (dispatch (F := Ideal) a0 (route (F := Ideal) a1) (slot (F := Ideal) (route (F := Ideal) a1))
      (keep (F := Ideal) (slot (F := Ideal) (route (F := Ideal) a1)))) a2 a3 a4)

end Cert.Moe

end
-- ==== Proof.KHost.lean ====
/-
  The kernel program's host lines read as the shared routing functions: what the region finds in the buffers the
  host lines before it wrote (expert, slot, kept mask, dispatched array), and what the lines after it make of the
  region's output array.
-/
import proofs.«108423_j69355131896109_1_alg».proof.Proof.Gen.KernelIdeal.Frame
import proofs.«108423_j69355131896109_1_alg».proof.Proof.Spec

noncomputable section

namespace Cert.KernelIdeal.Hand

open Cert.KernelIdeal Cert.KernelIdeal.Gen Idealize.ShloMosaic Idealize.ShloMosaic.TcCoe Idealize.SL.Sem
open Idealize.ShloMosaic.Pipeline (Dat Cfg Window)
open Idealize.ShloMosaic.StableHlo

variable {F : FTy → Type} [FloatOps F]
variable (m : (ℓ : Loc nD τ sig) → Buf (Elt F) ℓ)

/-! ## Reading a host stretch

Every theorem below reads one buffer after a literal stretch of host lines: the stretch is unfolded line by line, each
line's result read at its own buffer and every other buffer left as it was, and the term that remains is the shared
routing function (`Cert.Moe`) applied to the launch contents, up to unfolding the definitions. -/

/-- Two index columns side by side: the index pairs (expert, slot) as a function of the two columns. -/
private def pair2 (a b : (⟨S32768x1, .i32⟩ : BufTy).Contents (Elt F)) : (⟨S32768x2, .i32⟩ : BufTy).Contents (Elt F) :=
  concatenate S32768x2 1 [⟨S32768x1, a⟩, ⟨S32768x1, b⟩] concatenates_S32768x1_S32768x1_S32768x2_d1

/-- The concatenating line's function is `pair2`. -/
private theorem pair2_fun :
    ((fun a b => concatenate S32768x2 1 [⟨S32768x1, a⟩, ⟨S32768x1, b⟩] concatenates_S32768x1_S32768x1_S32768x2_d1) :
      (⟨S32768x1, .i32⟩ : BufTy).Contents (Elt F) → (⟨S32768x1, .i32⟩ : BufTy).Contents (Elt F) →
        (⟨S32768x2, .i32⟩ : BufTy).Contents (Elt F)) = pair2 := rfl

/-- The expert of every token, as the region finds it. -/
theorem V_route (c : Dev nD) :
    V m c main_v2 = Cert.Moe.route (F := F) (m ((c : Thread nD τ).loc main_arg1)) := by
  dsimp only [Gen.V, Gen.V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [TRef.ofBuf, TRef.toBuf, cast_eq]
  unfold Cert.Moe.route Cert.Moe.remainderFn
  rfl

/-- The slot of every token. -/
theorem V_slot (c : Dev nD) :
    V m c main_v8 = Cert.Moe.slot (F := F) (Cert.Moe.route (F := F) (m ((c : Thread nD τ).loc main_arg1))) := by
  dsimp only [Gen.V, Gen.V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [TRef.ofBuf, TRef.toBuf, cast_eq]
  unfold Cert.Moe.slot Cert.Moe.oneHot Cert.Moe.route Cert.Moe.remainderFn
  rfl

/-- The kept mask. -/
theorem V_keep (c : Dev nD) :
    V m c main_v10 = Cert.Moe.keep (F := F) (Cert.Moe.slot (F := F) (Cert.Moe.route (F := F) (m ((c : Thread nD τ).loc main_arg1)))) := by
  dsimp only [Gen.V, Gen.V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [TRef.ofBuf, TRef.toBuf, cast_eq]
  unfold Cert.Moe.keep Cert.Moe.slot Cert.Moe.oneHot Cert.Moe.route Cert.Moe.remainderFn
  rfl

/-! ## The dispatched array

The lines before the region are cut after the kept mask: the second part (the reshape of x, the wrapped index pairs,
the scatter) is read over ANY contents `W` of the buffers, as `Cert.Moe.dispatch` of what `W` holds at x, the expert, the
slot and the kept mask; the first part leaves those four as the region finds them, the second part writing none. -/

/-- The lines up to the kept mask. -/
private abbrev opsPre : List (HloOp τ sig (Elt F)) :=
  hostOps0 ++ (hostOps0_1 ++ (hostOps0_2 ++ (hostOps0_3 ++ (hostOps0_4 ++ (hostOps0_5 ++ List.take 9 hostOps0_6)))))
/-- The lines from the reshape of x to the scatter. -/
private abbrev opsIdx : List (HloOp τ sig (Elt F)) := List.drop 9 hostOps0_6 ++ (hostOps0_7 ++ hostOps0_8)

private theorem flatten_cut :
    List.flatten [hostOps0, hostOps0_1, hostOps0_2, hostOps0_3, hostOps0_4, hostOps0_5, hostOps0_6, hostOps0_7, hostOps0_8]
      = (opsPre ++ opsIdx : List (HloOp τ sig (Elt F))) := rfl

/-- The second part over any contents: the dispatch of what it finds. -/
private theorem dispatch_gen (W : Valuation τ sig (Elt F)) :
    StableHlo.after opsIdx W (Proc.devRef .tc main_v27)
      = Cert.Moe.dispatch (F := F) (W (Proc.devRef .tc main_arg0)) (W (Proc.devRef .tc main_v2)) (W (Proc.devRef .tc main_v8))
          (W (Proc.devRef .tc main_v10)) := by
  simp only [opsIdx, hostOps0_6, hostOps0_7, hostOps0_8, List.drop_succ_cons, List.drop_zero, List.cons_append, List.nil_append,
    pair2_fun]
  after_results_simp
  simp only [TRef.ofBuf, TRef.toBuf, cast_eq]
  unfold pair2 Cert.Moe.dispatch Cert.Moe.idxPairs Cert.Moe.wrapIdx
  rfl

/-- The second part writes none of x, the expert, the slot and the kept mask. -/
private theorem idx_keeps : ∀ r ∈ [main_arg0, main_v2, main_v8, main_v10],
    ∀ op ∈ (opsIdx : List (HloOp τ sig (Elt F))), (Proc.devRef .tc r : DevRef τ sig) ∉ op.writes := by
  intro r hr
  simp only [List.mem_cons, List.mem_nil_iff, or_false] at hr
  refine List.forall_iff_forall_mem.mp ?_
  simp only [opsIdx, hostOps0_6, hostOps0_7, hostOps0_8, List.drop_succ_cons, List.drop_zero, List.cons_append, List.nil_append,
    List.Forall, StableHlo.nullary_writes, StableHlo.unary_writes, StableHlo.binary_writes, StableHlo.ternary_writes,
    StableHlo.reshape_writes, Finset.mem_singleton]
  rcases hr with rfl | rfl | rfl | rfl <;> (repeat' apply And.intro) <;> exact StableHlo.devRef_ne_of_ne (by decide)

/-- A buffer the second part does not write is, after the first part, already as the region finds it. -/
private theorem pre_read (c : Dev nD) (r : Ref sig .tc)
    (hr : ∀ op ∈ (opsIdx : List (HloOp τ sig (Elt F))), (Proc.devRef .tc r : DevRef τ sig) ∉ op.writes) :
    StableHlo.after opsPre (fun b => m (c, b)) (Proc.devRef .tc r) = V m c r := by
  dsimp only [Gen.V, Gen.V0]
  rw [flatten_cut, StableHlo.after_append opsPre opsIdx, StableHlo.after_of_forall_not_mem opsIdx _ hr]

/-- The dispatched array the region reads through window 0. -/
theorem V_dispatch (c : Dev nD) :
    V m c main_v27 = Cert.Moe.dispatch (F := F) (m ((c : Thread nD τ).loc main_arg0))
      (Cert.Moe.route (F := F) (m ((c : Thread nD τ).loc main_arg1)))
      (Cert.Moe.slot (F := F) (Cert.Moe.route (F := F) (m ((c : Thread nD τ).loc main_arg1))))
      (Cert.Moe.keep (F := F) (Cert.Moe.slot (F := F) (Cert.Moe.route (F := F) (m ((c : Thread nD τ).loc main_arg1))))) := by
  have e : V m c main_v27 = StableHlo.after opsIdx (StableHlo.after opsPre (fun b => m (c, b))) (Proc.devRef .tc main_v27) := by
    dsimp only [Gen.V, Gen.V0]
    rw [flatten_cut, StableHlo.after_append opsPre opsIdx]
  rw [e, dispatch_gen,
    pre_read m c main_arg0 (idx_keeps _ (by decide)),
    pre_read m c main_v2 (idx_keeps _ (by decide)),
    pre_read m c main_v8 (idx_keeps _ (by decide)),
    pre_read m c main_v10 (idx_keeps _ (by decide)),
    V_main_arg0, V_route, V_slot, V_keep]

/-! ## The lines after the region -/

/-- The lines after the region over any contents `W`: the combine of what they find at the expert, the slot, the kept mask
    and the region's output array. -/
private theorem tail_gen (W : Valuation τ sig (Elt F)) :
    StableHlo.after hostOps1 W (Proc.devRef .tc main_v49)
      = Cert.Moe.combine (F := F) (W (Proc.devRef .tc main_v2)) (W (Proc.devRef .tc main_v8)) (W (Proc.devRef .tc main_v10))
          (W (Proc.devRef .tc main_v28)) := by
  simp only [hostOps1, pair2_fun]
  after_results_simp
  unfold pair2 Cert.Moe.combine Cert.Moe.idxPairs Cert.Moe.wrapIdx
  rfl

/-- The lines after the region: the combine of the region's output array with the routing the lines before the
    region computed. -/
theorem tail_eq (c : Dev nD) :
    Pipeline.afterTail₀ cfgs (dats m) 0 (V0 m) [hostOps1] c main_v49
      = Cert.Moe.combine (F := F) (V m c main_v2) (V m c main_v8) (V m c main_v10) ((dats m 0 c).arrAt 4 cfg0.N) := by
  unfold Pipeline.afterTail₀
  simp only [List.flatten_cons, List.flatten_nil, List.append_nil]
  rw [tail_gen]
  rw [Pipeline.withArrays_of_ne _ c (V0 m c) _ main_v2 (by exact (by decide : ∀ w, Pipeline.arrRef spec0 w ≠ main_v2)),
    Pipeline.withArrays_of_ne _ c (V0 m c) _ main_v8 (by exact (by decide : ∀ w, Pipeline.arrRef spec0 w ≠ main_v8)),
    Pipeline.withArrays_of_ne _ c (V0 m c) _ main_v10 (by exact (by decide : ∀ w, Pipeline.arrRef spec0 w ≠ main_v10))]
  exact congrArg (Cert.Moe.combine (F := F) _ _ _) (Pipeline.withArrays_arr spec0 launch0.win.arr_inj c (V0 m c) _ 4)

end Cert.KernelIdeal.Hand

end
-- ==== Proof.KBody.lean ====
/-
  The kernel body's one stored value at an index, on the extended reals: row r, column g of the point's output
  block is logistic (∑_d x[r,d] · wr[g,d]) · ∑_f (max (∑_d x[r,d] · wk[f,d]) 0)² · wv[g,f].
-/
import proofs.«108423_j69355131896109_1_alg».proof.Proof.Gen.KernelIdeal.Skeleton
import proofs.«108423_j69355131896109_1_alg».proof.Proof.Spec
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.SL.Sem
open Idealize.ShloMosaic.ValueIdx

/-- A product A · Bᵀ of an m×k by an n×k matrix: both operands are contracted along their second axis and there is
    no batch axis. Accumulated into the zero splat and read at (a, b), it is ∑_c A[a,c] · B[b,c]. -/
private theorem matmul_nt_apply {m k n : Nat} {φ₁ φ₂ : FTy}
    (w : DotDims.WF ⟨2, ![m, k]⟩ ⟨2, ![n, k]⟩ ⟨2, ![m, n]⟩ [1] [1] [0] [0] [] [])
    (A : FVec Ideal ⟨2, ![m, k]⟩ φ₁) (B : FVec Ideal ⟨2, ![n, k]⟩ φ₂) (a : Fin m) (b : Fin n) :
    matmul (⟨[1], [1], [0], [0], [], [], w⟩ : DotDims ⟨2, ![m, k]⟩ ⟨2, ![n, k]⟩ ⟨2, ![m, n]⟩) none A B
        (constant (F := Ideal) ⟨2, ![m, n]⟩ .f32 0x00000000#32) (ix2 a b)
      = ∑ c : Fin k, A (ix2 a c) * B (ix2 b c) := by
  show FloatOps.matmul _ none A B _ (ix2 a b) = _
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  -- the contraction position built from c has c as its one coordinate
  have hc := contrEquiv1_symm_val
    (⟨[1], [1], [0], [0], [], [], w⟩ : DotDims ⟨2, ![m, k]⟩ ⟨2, ![n, k]⟩ ⟨2, ![m, n]⟩) k rfl rfl c
  -- the left operand is read at (a, c): its free axis follows the result's row, its contracted axis the position
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  -- the right operand is read at (b, c): its free axis follows the result's column
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

/-- The logistic of a vector, read at an index, is the logistic of the element. -/
private theorem logistic_apply {s : Shape} {φ : FTy} (a : FVec Ideal s φ) (i : s.Idx) :
    logistic a i = Ideal.logistic (a i) := rfl

/-- A [1, a, b] block cast to [a, b] and narrowed to bf16, read at (i, j): narrowing is the identity on the extended
    reals, and the cast only drops the leading unit axis, so it is the block's entry (0, i, j). -/
private theorem operand_apply {a b : ℕ} (x : FVec Ideal ⟨3, ![1, a, b]⟩ .f32)
    (h : (⟨3, ![1, a, b]⟩ : Shape).ShapeCasts ⟨2, ![a, b]⟩) (hb : FTy.bits .bf16 < FTy.bits .f32) (i : Fin a) (j : Fin b) :
    (truncf .bf16 (shapeCast ⟨2, ![a, b]⟩ x h) hb : FVec Ideal ⟨2, ![a, b]⟩ .bf16) (ix2 i j) = x (ix3 (0 : Fin 1) i j) :=
  (truncf_apply _ hb _).trans (shapeCast_1ab_ab_apply x h i j)

/-- The maximum against a splat of the zero word, read at an index, is the maximum of the element and 0. -/
private theorem relu_apply {s : Shape} (a : FVec Ideal s .f32) (i : s.Idx) :
    maximumf a (broadcast s (Scalar.ofBits (F := Ideal) .f32 0x00000000#32)) i = max (a i) 0 := by
  show max (a i) (Ideal.ofBits .f32 0x00000000#32) = _
  rw [Ideal.ofBits_zero_f32]

/-- The first product, x · wkᵀ, at (r, f): ∑_d a[r,d] · b[f,d]. -/
private theorem h_apply (a : FVec Ideal S256x512 .bf16) (b : FVec Ideal S1792x512 .bf16) (r : Fin 256) (f : Fin 1792) :
    matmul dot_S256x512_S1792x512_S256x1792_1_1_0_0_n_n none a b
        (constant (F := Ideal) S256x1792 .f32 0x00000000#32) (ix2 r f)
      = ∑ d : Fin 512, a (ix2 r d) * b (ix2 f d) :=
  matmul_nt_apply _ a b r f

/-- The second product, (relu h)² · wvᵀ, at (r, g): ∑_f a[r,f] · b[g,f]. -/
private theorem kv_apply (a : FVec Ideal S256x1792 .bf16) (b : FVec Ideal S512x1792 .bf16) (r : Fin 256) (g : Fin 512) :
    matmul dot_S256x1792_S512x1792_S256x512_1_1_0_0_n_n none a b
        (constant (F := Ideal) S256x512 .f32 0x00000000#32) (ix2 r g)
      = ∑ f : Fin 1792, a (ix2 r f) * b (ix2 g f) :=
  matmul_nt_apply _ a b r g

/-- The third product, x · wrᵀ, at (r, g): ∑_d a[r,d] · b[g,d]. -/
private theorem z_apply (a : FVec Ideal S256x512 .bf16) (b : FVec Ideal S512x512 .bf16) (r : Fin 256) (g : Fin 512) :
    matmul dot_S256x512_S512x512_S256x512_1_1_0_0_n_n none a b
        (constant (F := Ideal) S256x512 .f32 0x00000000#32) (ix2 r g)
      = ∑ d : Fin 512, a (ix2 r d) * b (ix2 g d) :=
  matmul_nt_apply _ a b r g

theorem pay_apply (x0 : Vec Ideal S1x256x512 .f32) (x1 : Vec Ideal S1x1792x512 .f32) (x2 : Vec Ideal S1x512x512 .f32)
    (x3 : Vec Ideal S1x512x1792 .f32) (r : Fin 256) (g : Fin 512) :
    k0_pay1 (F := Ideal) x0 x1 x2 x3 (ix3 (0 : Fin 1) r g)
      = Ideal.logistic (∑ d : Fin 512, x0 (ix3 (0 : Fin 1) r d) * x2 (ix3 (0 : Fin 1) g d))
        * ∑ f : Fin 1792, (max (∑ d : Fin 512, x0 (ix3 (0 : Fin 1) r d) * x1 (ix3 (0 : Fin 1) f d)) 0
            * max (∑ d : Fin 512, x0 (ix3 (0 : Fin 1) r d) * x1 (ix3 (0 : Fin 1) f d)) 0) * x3 (ix3 (0 : Fin 1) g f) := by
  unfold k0_pay1
  -- the cast back to [1, 256, 512] reads the [256, 512] product at (r, g); the product is entrywise
  refine (shapeCast_ab_1ab_apply _ _ (0 : Fin 1) r g).trans ?_
  refine (mulf_apply _ _ _).trans ?_
  refine congrArg₂ (· * ·) ?_ ?_
  · -- the gate: the logistic of x · wrᵀ at (r, g)
    refine (logistic_apply _ _).trans (congrArg Ideal.logistic ?_)
    refine (z_apply _ _ r g).trans (Finset.sum_congr rfl fun d _ => ?_)
    exact congrArg₂ (· * ·) (operand_apply x0 _ _ r d) (operand_apply x2 _ _ g d)
  · -- the value: (relu (x · wkᵀ))² · wvᵀ at (r, g)
    refine (kv_apply _ _ r g).trans (Finset.sum_congr rfl fun f _ => ?_)
    refine congrArg₂ (· * ·) ?_ (operand_apply x3 _ _ g f)
    -- narrowing the square to bf16 is the identity; the square is entrywise; each factor is max (h[r,f]) 0
    refine (truncf_apply (ψ := .bf16) _ bitsLt_bf16_f32 _).trans ((mulf_apply _ _ _).trans ?_)
    refine congrArg₂ (· * ·) ?_ ?_ <;>
      exact (relu_apply _ _).trans (congrArg (fun t => max t 0) ((h_apply _ _ r f).trans
        (Finset.sum_congr rfl fun d _ => congrArg₂ (· * ·) (operand_apply x0 _ _ r d) (operand_apply x1 _ _ f d))))

end Cert.KernelIdeal.Hand

end
-- ==== Proof.KBlocks.lean ====
/-
  From blocks to the array: grid point (e, ct) writes rows [256·ct, 256·ct + 256) of expert e, the 128 points cover
  the [64, 512, 512] output once, and each block is the feed-forward network of the dispatched array restricted to it.
-/
import proofs.«108423_j69355131896109_1_alg».proof.Proof.Gen.KernelIdeal.Frame
import proofs.«108423_j69355131896109_1_alg».proof.Proof.Spec
import proofs.«108423_j69355131896109_1_alg».proof.Proof.KBody
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (m : (ℓ : Loc nD τ sig) → Buf (Elt Ideal) ℓ)

/-- The zero offsets of a rank-3 rectangle, as the constant function. -/
theorem zero_offsets : (![0, 0, 0] : Fin 3 → Nat) = fun _ => 0 :=
  funext fun a => match a with | ⟨0, _⟩ => rfl | ⟨1, _⟩ => rfl | ⟨2, _⟩ => rfl

/-- The printed index maps over the grid: point t is expert t / 2, row tile t % 2. The dispatched array's and the
    output's windows sit at block (expert, row tile, 0); each weight's window at block (expert, 0, 0). -/
theorem block_indices : ∀ t : Fin cfg0.N,
    win0_4.index t (0 : Fin 3) = t.val / 2 ∧ win0_4.index t (1 : Fin 3) = t.val % 2 ∧ win0_4.index t (2 : Fin 3) = 0
    ∧ win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = 0 ∧ win0_3.index t (2 : Fin 3) = 0 :=
  (by decide +kernel : ∀ t : Fin grid0.N, _)

/-- The body's value at row r, column g of a tile is entry (e, row, g) of the feed-forward network, when the tile's
    input row r is row (e, row) of the dispatched array and the three weight blocks are expert e's. -/
theorem pay_eq_ffnAt
    (D : S64x512x512.Idx → EReal) (Wk : S64x1792x512.Idx → EReal) (Wr : S64x512x512.Idx → EReal)
    (Wv : S64x512x1792.Idx → EReal)
    (x0 : Vec Ideal S1x256x512 .f32) (x1 : Vec Ideal S1x1792x512 .f32) (x2 : Vec Ideal S1x512x512 .f32)
    (x3 : Vec Ideal S1x512x1792 .f32) (e : Fin 64) (row : Fin 512) (r : Fin 256) (g : Fin 512)
    (h0 : ∀ d : Fin 512, x0 (ix3 (0 : Fin 1) r d) = D (ix3 e row d))
    (h1 : ∀ (f : Fin 1792) (d : Fin 512), x1 (ix3 (0 : Fin 1) f d) = Wk (ix3 e f d))
    (h2 : ∀ (g' : Fin 512) (d : Fin 512), x2 (ix3 (0 : Fin 1) g' d) = Wr (ix3 e g' d))
    (h3 : ∀ (g' : Fin 512) (f : Fin 1792), x3 (ix3 (0 : Fin 1) g' f) = Wv (ix3 e g' f)) :
    k0_pay1 (F := Ideal) x0 x1 x2 x3 (ix3 (0 : Fin 1) r g) = Cert.Moe.ffnAt D Wk Wr Wv e row g := by
  rw [pay_apply]
  unfold Cert.Moe.ffnAt
  simp only [h0, h1, h2, h3]

/-- The four input blocks at grid point t, read off arbitrary arrays of the windows' shapes. -/
abbrev tileOf (D : S64x512x512.Idx → EReal) (t : Fin cfg0.N) : Vec Ideal S1x256x512 .f32 :=
  ((cfg0.win 0).blk t).view.read (Elt Ideal) D
abbrev wkOf (Wk : S64x1792x512.Idx → EReal) (t : Fin cfg0.N) : Vec Ideal S1x1792x512 .f32 :=
  ((cfg0.win 1).blk t).view.read (Elt Ideal) Wk
abbrev wrOf (Wr : S64x512x512.Idx → EReal) (t : Fin cfg0.N) : Vec Ideal S1x512x512 .f32 :=
  ((cfg0.win 2).blk t).view.read (Elt Ideal) Wr
abbrev wvOf (Wv : S64x512x1792.Idx → EReal) (t : Fin cfg0.N) : Vec Ideal S1x512x1792 .f32 :=
  ((cfg0.win 3).blk t).view.read (Elt Ideal) Wv

/-- The dispatched array's tile at point t: its row r is row (t % 2) · 256 + r of expert t / 2. -/
theorem tile_read (D : S64x512x512.Idx → EReal) (t : Fin cfg0.N) (e : Fin 64) (row : Fin 512) (r : Fin 256)
    (d : Fin 512) (he : e.val = t.val / 2) (hrow : row.val = t.val % 2 * 256 + r.val) :
    tileOf D t (ix3 (0 : Fin 1) r d) = D (ix3 e row d) := by
  obtain ⟨-, -, -, d0, d1, d2, -⟩ := block_indices t
  show D (((cfg0.win 0).blk t).view.emb (ix3 (0 : Fin 1) r d)) = D (ix3 e row d)
  refine congrArg D ?_
  funext a; apply Fin.ext
  match a with
  | ⟨0, _⟩ => show win0_0.index t (0 : Fin 3) * 1 + 1 * 0 = e.val; omega
  | ⟨1, _⟩ => show win0_0.index t (1 : Fin 3) * 256 + 1 * r.val = row.val; omega
  | ⟨2, _⟩ => show win0_0.index t (2 : Fin 3) * 512 + 1 * d.val = d.val; omega

/-- Expert t / 2's first weight block, whole: row f of the block is row f of that expert. -/
theorem wk_read (Wk : S64x1792x512.Idx → EReal) (t : Fin cfg0.N) (e : Fin 64) (f : Fin 1792) (d : Fin 512)
    (he : e.val = t.val / 2) : wkOf Wk t (ix3 (0 : Fin 1) f d) = Wk (ix3 e f d) := by
  obtain ⟨-, -, -, -, -, -, k0, k1, k2, -⟩ := block_indices t
  show Wk (((cfg0.win 1).blk t).view.emb (ix3 (0 : Fin 1) f d)) = Wk (ix3 e f d)
  refine congrArg Wk ?_
  funext a; apply Fin.ext
  match a with
  | ⟨0, _⟩ => show win0_1.index t (0 : Fin 3) * 1 + 1 * 0 = e.val; omega
  | ⟨1, _⟩ => show win0_1.index t (1 : Fin 3) * 1792 + 1 * f.val = f.val; omega
  | ⟨2, _⟩ => show win0_1.index t (2 : Fin 3) * 512 + 1 * d.val = d.val; omega

/-- Expert t / 2's gate weight block, whole. -/
theorem wr_read (Wr : S64x512x512.Idx → EReal) (t : Fin cfg0.N) (e : Fin 64) (g : Fin 512) (d : Fin 512)
    (he : e.val = t.val / 2) : wrOf Wr t (ix3 (0 : Fin 1) g d) = Wr (ix3 e g d) := by
  obtain ⟨-, -, -, -, -, -, -, -, -, r0, r1, r2, -⟩ := block_indices t
  show Wr (((cfg0.win 2).blk t).view.emb (ix3 (0 : Fin 1) g d)) = Wr (ix3 e g d)
  refine congrArg Wr ?_
  funext a; apply Fin.ext
  match a with
  | ⟨0, _⟩ => show win0_2.index t (0 : Fin 3) * 1 + 1 * 0 = e.val; omega
  | ⟨1, _⟩ => show win0_2.index t (1 : Fin 3) * 512 + 1 * g.val = g.val; omega
  | ⟨2, _⟩ => show win0_2.index t (2 : Fin 3) * 512 + 1 * d.val = d.val; omega

/-- Expert t / 2's second weight block, whole. -/
theorem wv_read (Wv : S64x512x1792.Idx → EReal) (t : Fin cfg0.N) (e : Fin 64) (g : Fin 512) (f : Fin 1792)
    (he : e.val = t.val / 2) : wvOf Wv t (ix3 (0 : Fin 1) g f) = Wv (ix3 e g f) := by
  obtain ⟨-, -, -, -, -, -, -, -, -, -, -, -, v0, v1, v2⟩ := block_indices t
  show Wv (((cfg0.win 3).blk t).view.emb (ix3 (0 : Fin 1) g f)) = Wv (ix3 e g f)
  refine congrArg Wv ?_
  funext a; apply Fin.ext
  match a with
  | ⟨0, _⟩ => show win0_3.index t (0 : Fin 3) * 1 + 1 * 0 = e.val; omega
  | ⟨1, _⟩ => show win0_3.index t (1 : Fin 3) * 512 + 1 * g.val = g.val; omega
  | ⟨2, _⟩ => show win0_3.index t (2 : Fin 3) * 1792 + 1 * f.val = f.val; omega

/-- Where point t's output block sits: entry (r, g) of the block is entry ((t % 2) · 256 + r, g) of expert t / 2. -/
theorem out_place (t : Fin cfg0.N) (e : Fin 64) (row : Fin 512) (r : Fin 256) (g : Fin 512)
    (he : e.val = t.val / 2) (hrow : row.val = t.val % 2 * 256 + r.val) :
    ((cfg0.win 4).blk t).view.emb (ix3 (0 : Fin 1) r g) = (ix3 e row g : S64x512x512.Idx) := by
  obtain ⟨o0, o1, o2, -⟩ := block_indices t
  funext a; apply Fin.ext
  match a with
  | ⟨0, _⟩ => show win0_4.index t (0 : Fin 3) * 1 + 1 * 0 = e.val; omega
  | ⟨1, _⟩ => show win0_4.index t (1 : Fin 3) * 256 + 1 * r.val = row.val; omega
  | ⟨2, _⟩ => show win0_4.index t (2 : Fin 3) * 512 + 1 * g.val = g.val; omega

/-- The body's value on point t's blocks, entry by entry, is the feed-forward network where the output block sits. -/
theorem tile_value (D : S64x512x512.Idx → EReal) (Wk : S64x1792x512.Idx → EReal) (Wr : S64x512x512.Idx → EReal)
    (Wv : S64x512x1792.Idx → EReal) (t : Fin cfg0.N) (z : Fin 1) (r : Fin 256) (g : Fin 512) :
    k0_pay1 (F := Ideal) (tileOf D t) (wkOf Wk t) (wrOf Wr t) (wvOf Wv t) (ix3 z r g)
      = Cert.Moe.ffn D Wk Wr Wv (((cfg0.win 4).blk t).view.emb (ix3 z r g)) := by
  have hN : cfg0.N = 128 := N_0
  have ht : t.val < cfg0.N := t.isLt
  have hr : r.val < 256 := r.isLt
  obtain rfl : z = 0 := Subsingleton.elim _ _
  have he : t.val / 2 < 64 := by omega
  have hrow : t.val % 2 * 256 + r.val < 512 := by omega
  rw [out_place t ⟨t.val / 2, he⟩ ⟨t.val % 2 * 256 + r.val, hrow⟩ r g rfl rfl]
  exact pay_eq_ffnAt D Wk Wr Wv (tileOf D t) (wkOf Wk t) (wrOf Wr t) (wvOf Wv t)
    ⟨t.val / 2, he⟩ ⟨t.val % 2 * 256 + r.val, hrow⟩ r g
    (fun d => tile_read D t ⟨t.val / 2, he⟩ ⟨t.val % 2 * 256 + r.val, hrow⟩ r d rfl rfl)
    (fun f d => wk_read Wk t ⟨t.val / 2, he⟩ f d rfl)
    (fun g' d => wr_read Wr t ⟨t.val / 2, he⟩ g' d rfl)
    (fun g' f => wv_read Wv t ⟨t.val / 2, he⟩ g' f rfl)

/-- The same at an arbitrary index of the block. -/
theorem tile_value_at (D : S64x512x512.Idx → EReal) (Wk : S64x1792x512.Idx → EReal) (Wr : S64x512x512.Idx → EReal)
    (Wv : S64x512x1792.Idx → EReal) (t : Fin cfg0.N) (y : S1x256x512.Idx) :
    k0_pay1 (F := Ideal) (tileOf D t) (wkOf Wk t) (wrOf Wr t) (wvOf Wv t) y
      = Cert.Moe.ffn D Wk Wr Wv (((cfg0.win 4).blk t).view.emb y) := by
  rw [eq_ix3 y]
  exact tile_value D Wk Wr Wv t (y 0) (y 1) (y 2)

/-- So the body's result on point t's blocks is point t's block of the feed-forward network of the four arrays. -/
theorem blocks_value (D : S64x512x512.Idx → EReal) (Wk : S64x1792x512.Idx → EReal) (Wr : S64x512x512.Idx → EReal)
    (Wv : S64x512x1792.Idx → EReal) (t : Fin cfg0.N) :
    (cfg0.win 4).cut (grid0.coords t) (k0_pay1 (F := Ideal) (tileOf D t) (wkOf Wk t) (wrOf Wr t) (wvOf Wv t))
      = ((cfg0.win 4).blk t).view.read (Elt Ideal) (Cert.Moe.ffn D Wk Wr Wv) := by
  funext j
  exact tile_value_at D Wk Wr Wv t j

/-- What grid point t writes back is its block of the feed-forward network of the arrays the region found. -/
theorem flushed_eq (c : Dev nD) (t : Fin cfg0.N) :
    (dats m 0 c).flushed 4 t = ((cfg0.win 4).blk t).view.read (Elt Ideal)
      (Cert.Moe.ffn (V m c main_v27) (V m c main_arg2) (V m c main_arg3) (V m c main_arg4)) := by
  show (cfg0.win 4).cut (grid0.coords t) ((dats m 0 c).after 4 t) = _
  rw [after0_4]
  unfold out0_4
  rw [View.canon_unit_zero zero_offsets]
  simp only [View.ld_unit_zero (S := S1x256x512) zero_offsets, View.ld_unit_zero (S := S1x1792x512) zero_offsets,
    View.ld_unit_zero (S := S1x512x512) zero_offsets, View.ld_unit_zero (S := S1x512x1792) zero_offsets]
  unfold iblk
  exact blocks_value (V m c main_v27) (V m c main_arg2) (V m c main_arg3) (V m c main_arg4) t

/-- An index of the output array is in point t's block iff each coordinate is in the block's range on its axis. -/
theorem mem_tile (t : Fin cfg0.N) (i : S64x512x512.Idx) :
    i ∈ ((cfg0.win 4).blk t).view.set ↔ ∀ a : Fin 3, win0_4.index t a * S1x256x512.size a ≤ (i a).val
      ∧ (i a).val < win0_4.index t a * S1x256x512.size a + S1x256x512.size a := by
  show i ∈ ((View.whole main_v28).slice (win0_4.rect t)).set ↔ _
  rw [View.set_slice_whole, Rect.mem_set_unit]
  exact Iff.rfl

/-- Row r of expert e is in the block of grid point (e, r / 256): the 128 blocks cover the output array. -/
theorem covered (i : S64x512x512.Idx) :
    ∃ t : Fin cfg0.N, (cfg0.win 4).flush t = true ∧ i ∈ ((cfg0.win 4).blk t).view.set := by
  have hN : cfg0.N = 128 := N_0
  have hi0 : (i 0).val < 64 := (i 0).isLt
  have hi1 : (i 1).val < 512 := (i 1).isLt
  have hi2 : (i 2).val < 512 := (i 2).isLt
  have ht : (i 0).val * 2 + (i 1).val / 256 < cfg0.N := by omega
  obtain ⟨o0, o1, o2, -⟩ := block_indices ⟨(i 0).val * 2 + (i 1).val / 256, ht⟩
  refine ⟨⟨(i 0).val * 2 + (i 1).val / 256, ht⟩, flush0_4 _, ?_⟩
  rw [mem_tile]
  intro a
  match a with
  | ⟨0, _⟩ =>
    show win0_4.index ⟨(i 0).val * 2 + (i 1).val / 256, ht⟩ (0 : Fin 3) * 1 ≤ (i 0).val
      ∧ (i 0).val < win0_4.index ⟨(i 0).val * 2 + (i 1).val / 256, ht⟩ (0 : Fin 3) * 1 + 1
    dsimp only at o0; omega
  | ⟨1, _⟩ =>
    show win0_4.index ⟨(i 0).val * 2 + (i 1).val / 256, ht⟩ (1 : Fin 3) * 256 ≤ (i 1).val
      ∧ (i 1).val < win0_4.index ⟨(i 0).val * 2 + (i 1).val / 256, ht⟩ (1 : Fin 3) * 256 + 256
    dsimp only at o1; omega
  | ⟨2, _⟩ =>
    show win0_4.index ⟨(i 0).val * 2 + (i 1).val / 256, ht⟩ (2 : Fin 3) * 512 ≤ (i 2).val
      ∧ (i 2).val < win0_4.index ⟨(i 0).val * 2 + (i 1).val / 256, ht⟩ (2 : Fin 3) * 512 + 512
    omega

/-- The region's output array after the run is the feed-forward network of the arrays the region found. -/
theorem final4 (c : Dev nD) :
    (dats m 0 c).arrAt 4 cfg0.N
      = Cert.Moe.ffn (V m c main_v27) (V m c main_arg2) (V m c main_arg3) (V m c main_arg4) := by
  exact (dats m 0 c).arrAt_eq_of_cover 4
    (Cert.Moe.ffn (V m c main_v27) (V m c main_arg2) (V m c main_arg3) (V m c main_arg4))
    (fun t _ => flushed_eq m c t) covered

end Cert.KernelIdeal.Hand

end
-- ==== Proof.KRun.lean ====
/-
  The idealized kernel program's run with its result named: the host lines before the region compute the routing
  and the dispatched array, the region leaves the feed-forward network of that array in its output, and the lines
  after the region combine it.
-/
import proofs.«108423_j69355131896109_1_alg».proof.Proof.Gen.KernelIdeal.Frame
import proofs.«108423_j69355131896109_1_alg».proof.Proof.Result
import proofs.«108423_j69355131896109_1_alg».proof.Proof.KHost
import proofs.«108423_j69355131896109_1_alg».proof.Proof.KBlocks

noncomputable section

namespace Cert.KernelIdeal.Hand

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- What the lines after the region leave in the result buffer, as a function of the argument arrays. -/
theorem out_eq (c : Dev nD) :
    Pipeline.afterTail₀ cfgs (dats m) 0 (V0 m) [hostOps1] c main_v49
      = Cert.Moe.result (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_eq m c, final4 m c, V_route m c, V_slot m c, V_keep m c, V_dispatch m c, V_main_arg2 m c, V_main_arg3 m c,
    V_main_arg4 m c]
  rfl

/-- Every weakly fair execution terminates with the result buffer at `Cert.Moe.result` of the arguments, which
    end unchanged. -/
theorem run :
    θ_run defs (onTc (τ := τ) (main (F := Ideal))) ⟨m, fun _ => 0, ρ⟩ (fun r => ∀ c : Dev nD,
      r.2.mem ((c.tc : Thread nD τ).loc main_v49)
        = Cert.Moe.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v49 (Pipeline.mem_restRefs_of main_v49 (by decide) (by decide))).trans (out_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.Hand

end
-- ==== Proof.ROps.lean ====
/-
  The reference's @main as one straight line: its eighty statements with the seven outlined functions' bodies
  (two remainders, the one-hot, the running sum, the select, the relu) written out at their calls, 130 host
  operations in order: the routing (88), the feed-forward network (16), the combine (26); and its run read back as
  the fold of those operations over the launch contents.
-/
import proofs.«108423_j69355131896109_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The routing: the lines up to the scatter into expert slots. -/
abbrev opsRoute : List (HloOp τ sig (Elt F)) :=
  [ StableHlo.reshape main_arg1 main_v0 rfl shapeCasts_S8x4096_S32768,
    StableHlo.nullary main_c (constantI S_ 32 5099#32),
    StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S32768, .i32⟩) (broadcastInDim S32768 ![] bcast_S_S32768),
    StableHlo.TRef.binary (.of main_v0 : StableHlo.TRef sig ⟨S32768, .i32⟩) (.of main_call0_v3 : StableHlo.TRef sig ⟨S32768, .i32⟩) (.of main_call0_v4 : StableHlo.TRef sig ⟨S32768, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S32768, .i32⟩) (broadcastInDim S32768 ![] bcast_S_S32768),
    StableHlo.TRef.binary (.of main_call0_v4 : StableHlo.TRef sig ⟨S32768, .i32⟩) (.of main_call0_v5 : StableHlo.TRef sig ⟨S32768, .i32⟩) (.of main_call0_v6 : StableHlo.TRef sig ⟨S32768, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S32768, .i32⟩) (broadcastInDim S32768 ![] bcast_S_S32768),
    StableHlo.TRef.binary (.of main_call0_v4 : StableHlo.TRef sig ⟨S32768, .i32⟩) (.of main_call0_v7 : StableHlo.TRef sig ⟨S32768, .i32⟩) (.of main_call0_v8 : StableHlo.TRef sig ⟨S32768, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S32768, .i1⟩) (broadcastInDim S32768 ![] bcast_S_S32768),
    StableHlo.TRef.binary (.of main_call0_v8 : StableHlo.TRef sig ⟨S32768, .i1⟩) (.of main_call0_v10 : StableHlo.TRef sig ⟨S32768, .i1⟩) (.of main_call0_v11 : StableHlo.TRef sig ⟨S32768, .i1⟩) (cmpi .ne),
    StableHlo.TRef.binary (.of main_call0_v11 : StableHlo.TRef sig ⟨S32768, .i1⟩) (.of main_call0_v6 : StableHlo.TRef sig ⟨S32768, .i1⟩) (.of main_call0_v12 : StableHlo.TRef sig ⟨S32768, .i1⟩) andi,
    StableHlo.TRef.unary main_call0_call0.v0 (.of main_call0_v13 : StableHlo.TRef sig ⟨S32768, .i32⟩) (broadcastInDim S32768 ![] bcast_S_S32768),
    StableHlo.TRef.binary (.of main_call0_v4 : StableHlo.TRef sig ⟨S32768, .i32⟩) (.of main_call0_v13 : StableHlo.TRef sig ⟨S32768, .i32⟩) (.of main_call0_v14 : StableHlo.TRef sig ⟨S32768, .i32⟩) addi,
    StableHlo.TRef.ternary (.of main_call0_v12 : StableHlo.TRef sig ⟨S32768, .i1⟩) (.of main_call0_v14 : StableHlo.TRef sig ⟨S32768, .i32⟩) (.of main_call0_v4 : StableHlo.TRef sig ⟨S32768, .i32⟩) (.of main_v1 : StableHlo.TRef sig ⟨S32768, .i32⟩) select,
    StableHlo.nullary main_c_0 (constantI S_ 32 64#32),
    StableHlo.TRef.unary (.of main_c_0 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S32768, .i32⟩) (broadcastInDim S32768 ![] bcast_S_S32768),
    StableHlo.TRef.binary (.of main_v1 : StableHlo.TRef sig ⟨S32768, .i32⟩) (.of main_call1_v3 : StableHlo.TRef sig ⟨S32768, .i32⟩) (.of main_call1_v4 : StableHlo.TRef sig ⟨S32768, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S32768, .i32⟩) (broadcastInDim S32768 ![] bcast_S_S32768),
    StableHlo.TRef.binary (.of main_call1_v4 : StableHlo.TRef sig ⟨S32768, .i32⟩) (.of main_call1_v5 : StableHlo.TRef sig ⟨S32768, .i32⟩) (.of main_call1_v6 : StableHlo.TRef sig ⟨S32768, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S32768, .i32⟩) (broadcastInDim S32768 ![] bcast_S_S32768),
    StableHlo.TRef.binary (.of main_call1_v4 : StableHlo.TRef sig ⟨S32768, .i32⟩) (.of main_call1_v7 : StableHlo.TRef sig ⟨S32768, .i32⟩) (.of main_call1_v8 : StableHlo.TRef sig ⟨S32768, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S32768, .i1⟩) (broadcastInDim S32768 ![] bcast_S_S32768),
    StableHlo.TRef.binary (.of main_call1_v8 : StableHlo.TRef sig ⟨S32768, .i1⟩) (.of main_call1_v10 : StableHlo.TRef sig ⟨S32768, .i1⟩) (.of main_call1_v11 : StableHlo.TRef sig ⟨S32768, .i1⟩) (cmpi .ne),
    StableHlo.TRef.binary (.of main_call1_v11 : StableHlo.TRef sig ⟨S32768, .i1⟩) (.of main_call1_v6 : StableHlo.TRef sig ⟨S32768, .i1⟩) (.of main_call1_v12 : StableHlo.TRef sig ⟨S32768, .i1⟩) andi,
    StableHlo.TRef.unary main_call1_call0.v0 (.of main_call1_v13 : StableHlo.TRef sig ⟨S32768, .i32⟩) (broadcastInDim S32768 ![] bcast_S_S32768),
    StableHlo.TRef.binary (.of main_call1_v4 : StableHlo.TRef sig ⟨S32768, .i32⟩) (.of main_call1_v13 : StableHlo.TRef sig ⟨S32768, .i32⟩) (.of main_call1_v14 : StableHlo.TRef sig ⟨S32768, .i32⟩) addi,
    StableHlo.TRef.ternary (.of main_call1_v12 : StableHlo.TRef sig ⟨S32768, .i1⟩) (.of main_call1_v14 : StableHlo.TRef sig ⟨S32768, .i32⟩) (.of main_call1_v4 : StableHlo.TRef sig ⟨S32768, .i32⟩) (.of main_v2 : StableHlo.TRef sig ⟨S32768, .i32⟩) select,
    StableHlo.TRef.unary (.of main_v2 : StableHlo.TRef sig ⟨S32768, .i32⟩) (.of main_call2_v0 : StableHlo.TRef sig ⟨S32768x1, .i32⟩) (broadcastInDim S32768x1 ![0] bcast_S32768_S32768x1_0),
    StableHlo.TRef.nullary (.of main_call2_v1 : StableHlo.TRef sig ⟨S1x64, .i32⟩) (iotaInDim S1x64 32 1),
    StableHlo.TRef.unary (.of main_call2_v0 : StableHlo.TRef sig ⟨S32768x1, .i32⟩) (.of main_call2_v2 : StableHlo.TRef sig ⟨S32768x64, .i32⟩) (broadcastInDim S32768x64 ![0, 1] bcast_S32768x1_S32768x64_0_1),
    StableHlo.TRef.unary (.of main_call2_v1 : StableHlo.TRef sig ⟨S1x64, .i32⟩) (.of main_call2_v3 : StableHlo.TRef sig ⟨S32768x64, .i32⟩) (broadcastInDim S32768x64 ![0, 1] bcast_S1x64_S32768x64_0_1),
    StableHlo.TRef.binary (.of main_call2_v2 : StableHlo.TRef sig ⟨S32768x64, .i32⟩) (.of main_call2_v3 : StableHlo.TRef sig ⟨S32768x64, .i32⟩) (.of main_call2_v4 : StableHlo.TRef sig ⟨S32768x64, .i1⟩) (cmpi .eq),
    StableHlo.TRef.unary (.of main_call2_v4 : StableHlo.TRef sig ⟨S32768x64, .i1⟩) (.of main_v3 : StableHlo.TRef sig ⟨S32768x64, .i32⟩) (extui 32 · natLt_1_32),
    StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v3 : StableHlo.TRef sig ⟨S32768x64, .i32⟩) (.of main_call3_call0_v0 : StableHlo.TRef sig ⟨S_, .i32⟩) (.of main_v4 : StableHlo.TRef sig ⟨S32768x64, .i32⟩) (fun x v => Host.reduceWindow IntOp.addi ![32768, 1] ![1, 1] ![32767, 0] ![0, 0] x v reduceWindows_S32768x64_S32768x64_w32768s1p32767_0_w1s1p0_0 h_S_),
    StableHlo.binary main_v4 main_v3 main_v5 (muli : (⟨S32768x64, .i32⟩ : BufTy).Contents (Elt F) → (⟨S32768x64, .i32⟩ : BufTy).Contents (Elt F) → (⟨S32768x64, .i32⟩ : BufTy).Contents (Elt F)),
    StableHlo.nullary main_c_1 (constantI S_ 32 0#32),
    StableHlo.binary main_v5 main_c_1 main_v6 ((fun x v => Host.reduce IntOp.addi x v reducesTo_S32768x64_S32768_d1 h_S_) : (⟨S32768x64, .i32⟩ : BufTy).Contents (Elt F) → (⟨S_, .i32⟩ : BufTy).Contents (Elt F) → (⟨S32768, .i32⟩ : BufTy).Contents (Elt F)),
    StableHlo.nullary main_c_2 (constantI S_ 32 1#32),
    StableHlo.unary main_c_2 main_v7 (broadcastInDim S32768 ![] bcast_S_S32768 : (⟨S_, .i32⟩ : BufTy).Contents (Elt F) → (⟨S32768, .i32⟩ : BufTy).Contents (Elt F)),
    StableHlo.binary main_v6 main_v7 main_v8 (subi : (⟨S32768, .i32⟩ : BufTy).Contents (Elt F) → (⟨S32768, .i32⟩ : BufTy).Contents (Elt F) → (⟨S32768, .i32⟩ : BufTy).Contents (Elt F)),
    StableHlo.nullary main_c_3 (constantI S_ 32 512#32),
    StableHlo.unary main_c_3 main_v9 (broadcastInDim S32768 ![] bcast_S_S32768 : (⟨S_, .i32⟩ : BufTy).Contents (Elt F) → (⟨S32768, .i32⟩ : BufTy).Contents (Elt F)),
    StableHlo.binary main_v8 main_v9 main_v10 (cmpi .slt : (⟨S32768, .i32⟩ : BufTy).Contents (Elt F) → (⟨S32768, .i32⟩ : BufTy).Contents (Elt F) → (⟨S32768, .i1⟩ : BufTy).Contents (Elt F)),
    StableHlo.reshape main_arg0 main_v11 rfl shapeCasts_S8x4096x512_S32768x512,
    StableHlo.nullary main_c_4 (constantI S_ 32 512#32),
    StableHlo.TRef.unary (.of main_c_4 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S32768, .i32⟩) (broadcastInDim S32768 ![] bcast_S_S32768),
    StableHlo.TRef.ternary (.of main_v10 : StableHlo.TRef sig ⟨S32768, .i1⟩) (.of main_v8 : StableHlo.TRef sig ⟨S32768, .i32⟩) (.of main_call4_v1 : StableHlo.TRef sig ⟨S32768, .i32⟩) (.of main_v12 : StableHlo.TRef sig ⟨S32768, .i32⟩) select,
    StableHlo.nullary main_cst (constant S_ .f32 0x00000000#32),
    StableHlo.unary main_cst main_v13 (broadcastInDim S64x512x512 ![] bcast_S_S64x512x512 : (⟨S_, .f32⟩ : BufTy).Contents (Elt F) → (⟨S64x512x512, .f32⟩ : BufTy).Contents (Elt F)),
    StableHlo.nullary main_c_5 (constantI S_ 32 0#32),
    StableHlo.unary main_c_5 main_v14 (broadcastInDim S32768 ![] bcast_S_S32768 : (⟨S_, .i32⟩ : BufTy).Contents (Elt F) → (⟨S32768, .i32⟩ : BufTy).Contents (Elt F)),
    StableHlo.binary main_v2 main_v14 main_v15 (cmpi .slt : (⟨S32768, .i32⟩ : BufTy).Contents (Elt F) → (⟨S32768, .i32⟩ : BufTy).Contents (Elt F) → (⟨S32768, .i1⟩ : BufTy).Contents (Elt F)),
    StableHlo.nullary main_c_6 (constantI S_ 32 64#32),
    StableHlo.unary main_c_6 main_v16 (broadcastInDim S32768 ![] bcast_S_S32768 : (⟨S_, .i32⟩ : BufTy).Contents (Elt F) → (⟨S32768, .i32⟩ : BufTy).Contents (Elt F)),
    StableHlo.binary main_v2 main_v16 main_v17 (addi : (⟨S32768, .i32⟩ : BufTy).Contents (Elt F) → (⟨S32768, .i32⟩ : BufTy).Contents (Elt F) → (⟨S32768, .i32⟩ : BufTy).Contents (Elt F)),
    StableHlo.ternary main_v15 main_v17 main_v2 main_v18 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_7 (constantI S_ 32 0#32),
    StableHlo.unary main_c_7 main_v19 (broadcastInDim S32768 ![] bcast_S_S32768 : (⟨S_, .i32⟩ : BufTy).Contents (Elt F) → (⟨S32768, .i32⟩ : BufTy).Contents (Elt F)),
    StableHlo.binary main_v12 main_v19 main_v20 (cmpi .slt : (⟨S32768, .i32⟩ : BufTy).Contents (Elt F) → (⟨S32768, .i32⟩ : BufTy).Contents (Elt F) → (⟨S32768, .i1⟩ : BufTy).Contents (Elt F)),
    StableHlo.nullary main_c_8 (constantI S_ 32 512#32),
    StableHlo.unary main_c_8 main_v21 (broadcastInDim S32768 ![] bcast_S_S32768 : (⟨S_, .i32⟩ : BufTy).Contents (Elt F) → (⟨S32768, .i32⟩ : BufTy).Contents (Elt F)),
    StableHlo.binary main_v12 main_v21 main_v22 (addi : (⟨S32768, .i32⟩ : BufTy).Contents (Elt F) → (⟨S32768, .i32⟩ : BufTy).Contents (Elt F) → (⟨S32768, .i32⟩ : BufTy).Contents (Elt F)),
    StableHlo.ternary main_v20 main_v22 main_v12 main_v23 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v18 main_v24 (broadcastInDim S32768x1 ![0] bcast_S32768_S32768x1_0 : (⟨S32768, .i32⟩ : BufTy).Contents (Elt F) → (⟨S32768x1, .i32⟩ : BufTy).Contents (Elt F)),
    StableHlo.unary main_v23 main_v25 (broadcastInDim S32768x1 ![0] bcast_S32768_S32768x1_0 : (⟨S32768, .i32⟩ : BufTy).Contents (Elt F) → (⟨S32768x1, .i32⟩ : BufTy).Contents (Elt F)),
    StableHlo.binary main_v24 main_v25 main_v26 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.ternary main_v13 main_v26 main_v11 main_v27 ((fun x i u => Host.scatter scatter_S64x512x512_S32768x2_S32768x512_1_01_01_1 (fun _ b => b) x i u) : (⟨S64x512x512, .f32⟩ : BufTy).Contents (Elt F) → (⟨S32768x2, .i32⟩ : BufTy).Contents (Elt F) → (⟨S32768x512, .f32⟩ : BufTy).Contents (Elt F) → (⟨S64x512x512, .f32⟩ : BufTy).Contents (Elt F)) ]

/-- The feed-forward network on the dispatched array. -/
abbrev opsFfn : List (HloOp τ sig (Elt F)) :=
  [ StableHlo.binary main_v27 main_arg2 main_v28 ((fun l r => Host.dotGeneral dot_S64x512x512_S64x1792x512_S64x512x1792_2_2_1_1_0_0 none l r) : (⟨S64x512x512, .f32⟩ : BufTy).Contents (Elt F) → (⟨S64x1792x512, .f32⟩ : BufTy).Contents (Elt F) → (⟨S64x512x1792, .f32⟩ : BufTy).Contents (Elt F)),
    StableHlo.TRef.nullary main_call5.cst (constant S_ .f32 0x00000000#32),
    StableHlo.TRef.unary main_call5.cst main_call5.v0 (broadcastInDim S64x512x1792 ![] bcast_S_S64x512x1792),
    StableHlo.TRef.binary (.of main_v28 : StableHlo.TRef sig ⟨S64x512x1792, .f32⟩) main_call5.v0 main_call5.v1 maximumf,
    StableHlo.binary main_v29 main_v29 main_v30 (mulf : (⟨S64x512x1792, .f32⟩ : BufTy).Contents (Elt F) → (⟨S64x512x1792, .f32⟩ : BufTy).Contents (Elt F) → (⟨S64x512x1792, .f32⟩ : BufTy).Contents (Elt F)),
    StableHlo.binary main_v30 main_arg4 main_v31 ((fun l r => Host.dotGeneral dot_S64x512x1792_S64x512x1792_S64x512x512_2_2_1_1_0_0 none l r) : (⟨S64x512x1792, .f32⟩ : BufTy).Contents (Elt F) → (⟨S64x512x1792, .f32⟩ : BufTy).Contents (Elt F) → (⟨S64x512x512, .f32⟩ : BufTy).Contents (Elt F)),
    StableHlo.binary main_v27 main_arg3 main_v32 ((fun l r => Host.dotGeneral dot_S64x512x512_S64x512x512_S64x512x512_2_2_1_1_0_0 none l r) : (⟨S64x512x512, .f32⟩ : BufTy).Contents (Elt F) → (⟨S64x512x512, .f32⟩ : BufTy).Contents (Elt F) → (⟨S64x512x512, .f32⟩ : BufTy).Contents (Elt F)),
    StableHlo.unary main_v32 main_v33 (Host.negf : (⟨S64x512x512, .f32⟩ : BufTy).Contents (Elt F) → (⟨S64x512x512, .f32⟩ : BufTy).Contents (Elt F)),
    StableHlo.unary main_v33 main_v34 (Host.exp : (⟨S64x512x512, .f32⟩ : BufTy).Contents (Elt F) → (⟨S64x512x512, .f32⟩ : BufTy).Contents (Elt F)),
    StableHlo.nullary main_cst_9 (constant S_ .f32 0x3F800000#32),
    StableHlo.unary main_cst_9 main_v35 (broadcastInDim S64x512x512 ![] bcast_S_S64x512x512 : (⟨S_, .f32⟩ : BufTy).Contents (Elt F) → (⟨S64x512x512, .f32⟩ : BufTy).Contents (Elt F)),
    StableHlo.binary main_v35 main_v34 main_v36 (addf : (⟨S64x512x512, .f32⟩ : BufTy).Contents (Elt F) → (⟨S64x512x512, .f32⟩ : BufTy).Contents (Elt F) → (⟨S64x512x512, .f32⟩ : BufTy).Contents (Elt F)),
    StableHlo.nullary main_cst_10 (constant S_ .f32 0x3F800000#32),
    StableHlo.unary main_cst_10 main_v37 (broadcastInDim S64x512x512 ![] bcast_S_S64x512x512 : (⟨S_, .f32⟩ : BufTy).Contents (Elt F) → (⟨S64x512x512, .f32⟩ : BufTy).Contents (Elt F)),
    StableHlo.binary main_v37 main_v36 main_v38 (Host.divf : (⟨S64x512x512, .f32⟩ : BufTy).Contents (Elt F) → (⟨S64x512x512, .f32⟩ : BufTy).Contents (Elt F) → (⟨S64x512x512, .f32⟩ : BufTy).Contents (Elt F)),
    StableHlo.binary main_v38 main_v31 main_v39 (mulf : (⟨S64x512x512, .f32⟩ : BufTy).Contents (Elt F) → (⟨S64x512x512, .f32⟩ : BufTy).Contents (Elt F) → (⟨S64x512x512, .f32⟩ : BufTy).Contents (Elt F)) ]

/-- The combine: the gather of each token's row and the kept mask. -/
abbrev opsCombine : List (HloOp τ sig (Elt F)) :=
  [ StableHlo.nullary main_c_11 (constantI S_ 32 511#32),
    StableHlo.unary main_c_11 main_v40 (broadcastInDim S32768 ![] bcast_S_S32768 : (⟨S_, .i32⟩ : BufTy).Contents (Elt F) → (⟨S32768, .i32⟩ : BufTy).Contents (Elt F)),
    StableHlo.binary main_v8 main_v40 main_v41 (minsi : (⟨S32768, .i32⟩ : BufTy).Contents (Elt F) → (⟨S32768, .i32⟩ : BufTy).Contents (Elt F) → (⟨S32768, .i32⟩ : BufTy).Contents (Elt F)),
    StableHlo.nullary main_c_12 (constantI S_ 32 0#32),
    StableHlo.unary main_c_12 main_v42 (broadcastInDim S32768 ![] bcast_S_S32768 : (⟨S_, .i32⟩ : BufTy).Contents (Elt F) → (⟨S32768, .i32⟩ : BufTy).Contents (Elt F)),
    StableHlo.binary main_v2 main_v42 main_v43 (cmpi .slt : (⟨S32768, .i32⟩ : BufTy).Contents (Elt F) → (⟨S32768, .i32⟩ : BufTy).Contents (Elt F) → (⟨S32768, .i1⟩ : BufTy).Contents (Elt F)),
    StableHlo.nullary main_c_13 (constantI S_ 32 64#32),
    StableHlo.unary main_c_13 main_v44 (broadcastInDim S32768 ![] bcast_S_S32768 : (⟨S_, .i32⟩ : BufTy).Contents (Elt F) → (⟨S32768, .i32⟩ : BufTy).Contents (Elt F)),
    StableHlo.binary main_v2 main_v44 main_v45 (addi : (⟨S32768, .i32⟩ : BufTy).Contents (Elt F) → (⟨S32768, .i32⟩ : BufTy).Contents (Elt F) → (⟨S32768, .i32⟩ : BufTy).Contents (Elt F)),
    StableHlo.ternary main_v43 main_v45 main_v2 main_v46 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_14 (constantI S_ 32 0#32),
    StableHlo.unary main_c_14 main_v47 (broadcastInDim S32768 ![] bcast_S_S32768 : (⟨S_, .i32⟩ : BufTy).Contents (Elt F) → (⟨S32768, .i32⟩ : BufTy).Contents (Elt F)),
    StableHlo.binary main_v41 main_v47 main_v48 (cmpi .slt : (⟨S32768, .i32⟩ : BufTy).Contents (Elt F) → (⟨S32768, .i32⟩ : BufTy).Contents (Elt F) → (⟨S32768, .i1⟩ : BufTy).Contents (Elt F)),
    StableHlo.nullary main_c_15 (constantI S_ 32 512#32),
    StableHlo.unary main_c_15 main_v49 (broadcastInDim S32768 ![] bcast_S_S32768 : (⟨S_, .i32⟩ : BufTy).Contents (Elt F) → (⟨S32768, .i32⟩ : BufTy).Contents (Elt F)),
    StableHlo.binary main_v41 main_v49 main_v50 (addi : (⟨S32768, .i32⟩ : BufTy).Contents (Elt F) → (⟨S32768, .i32⟩ : BufTy).Contents (Elt F) → (⟨S32768, .i32⟩ : BufTy).Contents (Elt F)),
    StableHlo.ternary main_v48 main_v50 main_v41 main_v51 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v46 main_v52 (broadcastInDim S32768x1 ![0] bcast_S32768_S32768x1_0 : (⟨S32768, .i32⟩ : BufTy).Contents (Elt F) → (⟨S32768x1, .i32⟩ : BufTy).Contents (Elt F)),
    StableHlo.unary main_v51 main_v53 (broadcastInDim S32768x1 ![0] bcast_S32768_S32768x1_0 : (⟨S32768, .i32⟩ : BufTy).Contents (Elt F) → (⟨S32768x1, .i32⟩ : BufTy).Contents (Elt F)),
    StableHlo.binary main_v52 main_v53 main_v54 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.binary main_v39 main_v54 main_v55 ((fun x i => Host.gather gather_S64x512x512_S32768x2_S32768x512_1_01_n_n_01_1_11512 x i) : (⟨S64x512x512, .f32⟩ : BufTy).Contents (Elt F) → (⟨S32768x2, .i32⟩ : BufTy).Contents (Elt F) → (⟨S32768x512, .f32⟩ : BufTy).Contents (Elt F)),
    StableHlo.unary main_v10 main_v56 (broadcastInDim S32768x1 ![0] bcast_S32768_S32768x1_0 : (⟨S32768, .i1⟩ : BufTy).Contents (Elt F) → (⟨S32768x1, .i1⟩ : BufTy).Contents (Elt F)),
    StableHlo.unary main_v56 main_v57 (uitofp .f32 : (⟨S32768x1, .i1⟩ : BufTy).Contents (Elt F) → (⟨S32768x1, .f32⟩ : BufTy).Contents (Elt F)),
    StableHlo.unary main_v57 main_v58 (broadcastInDim S32768x512 ![0, 1] bcast_S32768x1_S32768x512_0_1 : (⟨S32768x1, .f32⟩ : BufTy).Contents (Elt F) → (⟨S32768x512, .f32⟩ : BufTy).Contents (Elt F)),
    StableHlo.binary main_v55 main_v58 main_v59 (mulf : (⟨S32768x512, .f32⟩ : BufTy).Contents (Elt F) → (⟨S32768x512, .f32⟩ : BufTy).Contents (Elt F) → (⟨S32768x512, .f32⟩ : BufTy).Contents (Elt F)),
    StableHlo.reshape main_v59 main_v60 rfl shapeCasts_S32768x512_S8x4096x512 ]

/-- @main's operations, in order. -/
abbrev ops : List (HloOp τ sig (Elt F)) := opsRoute ++ (opsFfn ++ opsCombine)

set_option maxRecDepth 4096 in
/-- @main is that straight line: the windows and the functions' definitions unfolded at their calls, both sides
    one chain of host steps once sequencing is reassociated. -/
theorem main_eq (c : Dev nD) : main (F := F) c = seq ops := by
  simp only [main, main_part0, main_part1, fn_remainder.body, fn_where.body, fn_one_hot.body, fn_cumsum.body,
    fn_cumsum_0.body, fn_where_1.body, fn_relu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsRoute_sub : (opsRoute : List (HloOp τ sig (Elt F))).Forall fun op => op.bufs ⊆ tcRefs τ sig :=
  ⟨reshape_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., nullary_bufs_sub .., unary_bufs_sub .., unary_bufs_sub .., binary_bufs_sub .., unary_bufs_sub .., nullary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., reshape_bufs_sub .., nullary_bufs_sub .., unary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩
theorem opsFfn_sub : (opsFfn : List (HloOp τ sig (Elt F))).Forall fun op => op.bufs ⊆ tcRefs τ sig :=
  ⟨binary_bufs_sub .., nullary_bufs_sub .., unary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem opsCombine_sub : (opsCombine : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., reshape_bufs_sub ..⟩

theorem ops_sub : (ops : List (HloOp τ sig (Elt F))).Forall fun op => op.bufs ⊆ tcRefs τ sig := by
  rw [List.forall_iff_forall_mem]
  intro op hop
  simp only [ops, List.mem_append] at hop
  rcases hop with h | h | h
  · exact (List.forall_iff_forall_mem.mp opsRoute_sub) op h
  · exact (List.forall_iff_forall_mem.mp opsFfn_sub) op h
  · exact (List.forall_iff_forall_mem.mp opsCombine_sub) op h

theorem opsRoute_fresh : (opsRoute : List (HloOp τ sig (Elt F))).Forall fun op => op.fresh = ∅ := by
  simp only [List.Forall]; repeat' constructor
theorem opsFfn_fresh : (opsFfn : List (HloOp τ sig (Elt F))).Forall fun op => op.fresh = ∅ := by
  simp only [List.Forall]; repeat' constructor
theorem opsCombine_fresh : (opsCombine : List (HloOp τ sig (Elt F))).Forall fun op => op.fresh = ∅ := by
  simp only [List.Forall]; repeat' constructor

/-- No operation allocates. -/
theorem ops_fresh : ∀ op ∈ (ops : List (HloOp τ sig (Elt F))), op.fresh = ∅ := by
  intro op hop
  simp only [ops, List.mem_append] at hop
  rcases hop with h | h | h
  · exact (List.forall_iff_forall_mem.mp opsRoute_fresh) op h
  · exact (List.forall_iff_forall_mem.mp opsFfn_fresh) op h
  · exact (List.forall_iff_forall_mem.mp opsCombine_fresh) op h

/-- Every weakly fair execution of @main terminates, and every final state has each buffer at the fold of the
    operations over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.RHost.lean ====
/-
  The reference's run read as the shared routing functions around its feed-forward network: the result buffer after
  all of @main's operations is the combine of the network applied to the dispatched array, and the argument
  buffers are never written.
-/
import proofs.«108423_j69355131896109_1_alg».proof.Proof.ROps
import proofs.«108423_j69355131896109_1_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Reading a stretch of operations

@main's operations are read stretch by stretch (the routing, the feed-forward network, the combine), each over ANY
contents `W` of the buffers: every operation's result is read at its own buffer and every other buffer is left as it
was, and the term that remains is the shared function (`Cert.Moe`) of what `W` holds at the buffers the stretch reads,
up to unfolding the definitions. The stretches are then composed: the contents after two stretches run one after the
other are the second's over the first's. -/

/-- The contents after two stretches in a row: the second stretch run from the contents the first leaves. -/
private theorem after_two (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A concatenation of two arrays depends only on the two arrays (its side condition speaks of their shapes alone),
    so what each of the two holds can be read inside it. -/
private theorem concatenate_pair_congr {α : Type} {t : Shape} {a : Fin t.rank} {s₁ s₂ : Shape}
    {x x' : s₁.Idx → α} {y y' : s₂.Idx → α} (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

attribute [local congr] concatenate_pair_congr

/-! ## The combine -/

attribute [local irreducible] Host.reduceWindow Host.reduce Host.scatter Host.gather in
/-- The combine's stretch over any contents: the combine of what it finds at the expert, the slot, the kept mask and
    the network's output. -/
private theorem combine_gen (W : Valuation τ sig (Elt F)) :
    after opsCombine W (main_v60 : DevRef τ sig)
      = Cert.Moe.combine (F := F) (W (main_v2 : DevRef τ sig)) (W (main_v8 : DevRef τ sig)) (W (main_v10 : DevRef τ sig)) (W (main_v39 : DevRef τ sig)) := by
  after_results_simp
  rfl

/-! ## The feed-forward network -/

/-- The network's stretch over any contents: the reference's network on the dispatched array and the three weights. -/
private theorem ffn_gen (W : Valuation τ sig (Elt F)) :
    after opsFfn W (main_v39 : DevRef τ sig)
      = Cert.Moe.ffnRef (F := F) (W (main_v27 : DevRef τ sig)) (W (main_arg2 : DevRef τ sig)) (W (main_arg3 : DevRef τ sig)) (W (main_arg4 : DevRef τ sig)) := by
  after_results_simp
  rfl

/-- The network's stretch writes none of the expert, the slot and the kept mask. -/
private theorem ffn_keeps : ∀ r ∈ [main_v2, main_v8, main_v10],
    ∀ op ∈ (opsFfn : List (HloOp τ sig (Elt F))), (Proc.devRef .tc r : DevRef τ sig) ∉ op.writes := by
  intro r hr
  simp only [List.mem_cons, List.mem_nil_iff, or_false] at hr
  refine List.forall_iff_forall_mem.mp ?_
  simp only [opsFfn, List.Forall, nullary_writes, unary_writes, binary_writes, ternary_writes, reshape_writes,
    Finset.mem_singleton]
  rcases hr with rfl | rfl | rfl <;> (repeat' apply And.intro) <;> exact devRef_ne_of_ne (by decide)

/-! ## The routing -/

/-- The expert of every token. -/
private theorem route_v2 (W : Valuation τ sig (Elt F)) :
    after opsRoute W (main_v2 : DevRef τ sig) = (Cert.Moe.route (F := F) (W (main_arg1 : DevRef τ sig))) := by
  after_results_simp
  simp only [cast_cast, cast_eq]
  rfl

attribute [local irreducible] Host.reduceWindow Host.reduce Host.scatter Host.gather in
/-- The slot of every token. -/
private theorem route_v8 (W : Valuation τ sig (Elt F)) :
    after opsRoute W (main_v8 : DevRef τ sig) = (Cert.Moe.slot (F := F) (Cert.Moe.route (F := F) (W (main_arg1 : DevRef τ sig)))) := by
  after_results_simp
  simp only [cast_cast, cast_eq]
  rfl

attribute [local irreducible] Host.reduceWindow Host.reduce Host.scatter Host.gather in
/-- The kept mask. -/
private theorem route_v10 (W : Valuation τ sig (Elt F)) :
    after opsRoute W (main_v10 : DevRef τ sig) = (Cert.Moe.keep (F := F) (Cert.Moe.slot (F := F) (Cert.Moe.route (F := F) (W (main_arg1 : DevRef τ sig))))) := by
  after_results_simp
  simp only [cast_cast, cast_eq]
  rfl

/-! ### The dispatched array

The routing is cut after the kept mask: the second part (the reshape of x, the wrapped index pairs, the scatter) is read
over ANY contents `W`, as the dispatch of what `W` holds at x, the expert, the slot and the kept mask; it writes none of
those four, so the first part already leaves them as the whole routing does. -/

/-- The routing's lines up to the kept mask. -/
private abbrev opsPre : List (HloOp τ sig (Elt F)) := List.take 63 opsRoute
/-- The routing's lines from the reshape of x to the scatter. -/
private abbrev opsIdx : List (HloOp τ sig (Elt F)) := List.drop 63 opsRoute

private theorem route_cut (W : Valuation τ sig (Elt F)) : after opsRoute W = after opsIdx (after opsPre W) := by
  rw [← after_two, List.take_append_drop]

attribute [local irreducible] Host.reduceWindow Host.reduce Host.scatter Host.gather in
/-- The second part over any contents: the dispatch of what it finds. -/
private theorem dispatch_gen (W : Valuation τ sig (Elt F)) :
    after opsIdx W (main_v27 : DevRef τ sig)
      = Cert.Moe.dispatch (F := F) (W (main_arg0 : DevRef τ sig)) (W (main_v2 : DevRef τ sig)) (W (main_v8 : DevRef τ sig)) (W (main_v10 : DevRef τ sig)) := by
  simp only [opsIdx, opsRoute, List.drop_succ_cons, List.drop_zero]
  after_results_simp
  simp only [cast_cast, cast_eq]
  rfl

/-- The second part writes none of x, the expert, the slot and the kept mask. -/
private theorem idx_keeps : ∀ r ∈ [main_arg0, main_v2, main_v8, main_v10],
    ∀ op ∈ (opsIdx : List (HloOp τ sig (Elt F))), (Proc.devRef .tc r : DevRef τ sig) ∉ op.writes := by
  intro r hr
  simp only [List.mem_cons, List.mem_nil_iff, or_false] at hr
  refine List.forall_iff_forall_mem.mp ?_
  simp only [opsIdx, opsRoute, List.drop_succ_cons, List.drop_zero, List.Forall, nullary_writes, unary_writes,
    binary_writes, ternary_writes, reshape_writes, Finset.mem_singleton]
  rcases hr with rfl | rfl | rfl | rfl <;> (repeat' apply And.intro) <;> exact devRef_ne_of_ne (by decide)

/-- A buffer the second part does not write is, after the first part, already as the whole routing leaves it. -/
private theorem pre_read (W : Valuation τ sig (Elt F)) (r : Ref sig .tc)
    (hr : ∀ op ∈ (opsIdx : List (HloOp τ sig (Elt F))), (Proc.devRef .tc r : DevRef τ sig) ∉ op.writes) :
    after opsPre W (Proc.devRef .tc r) = after opsRoute W (Proc.devRef .tc r) := by
  rw [route_cut, after_of_forall_not_mem opsIdx _ hr]

/-! ## The arguments -/

/-- No operation of @main writes an argument's buffer. -/
private theorem args_keep : ∀ r ∈ [main_arg0, main_arg1, main_arg2, main_arg3, main_arg4],
    ∀ op ∈ (ops : List (HloOp τ sig (Elt F))), (Proc.devRef .tc r : DevRef τ sig) ∉ op.writes := by
  intro r hr
  simp only [List.mem_cons, List.mem_nil_iff, or_false] at hr
  refine List.forall_iff_forall_mem.mp ?_
  simp only [ops, opsRoute, opsFfn, opsCombine, List.cons_append, List.nil_append, List.Forall, nullary_writes,
    unary_writes, binary_writes, ternary_writes, reshape_writes, Finset.mem_singleton]
  rcases hr with rfl | rfl | rfl | rfl | rfl <;> (repeat' apply And.intro) <;> exact devRef_ne_of_ne (by decide)

/-- The routing leaves an argument's buffer as it was. -/
private theorem route_arg (W : Valuation τ sig (Elt F)) (r : Ref sig .tc)
    (hr : r ∈ [main_arg0, main_arg1, main_arg2, main_arg3, main_arg4]) :
    after opsRoute W (Proc.devRef .tc r) = W (Proc.devRef .tc r) :=
  after_of_forall_not_mem _ _ fun op hop => args_keep r hr op (List.mem_append_left _ hop)

/-- The dispatched array after the whole routing. -/
private theorem route_v27 (W : Valuation τ sig (Elt F)) :
    after opsRoute W (main_v27 : DevRef τ sig)
      = Cert.Moe.dispatch (F := F) (W (main_arg0 : DevRef τ sig)) (Cert.Moe.route (F := F) (W (main_arg1 : DevRef τ sig)))
          (Cert.Moe.slot (F := F) (Cert.Moe.route (F := F) (W (main_arg1 : DevRef τ sig))))
          (Cert.Moe.keep (F := F) (Cert.Moe.slot (F := F) (Cert.Moe.route (F := F) (W (main_arg1 : DevRef τ sig))))) := by
  rw [route_cut, dispatch_gen,
    pre_read W main_arg0 (idx_keeps _ (by decide)), pre_read W main_v2 (idx_keeps _ (by decide)),
    pre_read W main_v8 (idx_keeps _ (by decide)), pre_read W main_v10 (idx_keeps _ (by decide)),
    route_arg W main_arg0 (by decide), route_v2, route_v8, route_v10]

/-! ## @main's run -/

/-- The result buffer after @main's operations, as a function of the argument buffers' contents. -/
theorem out_eq (V : Valuation τ sig (Elt F)) :
    after ops V (main_v60 : DevRef τ sig)
      = Cert.Moe.combine (F := F) (Cert.Moe.route (F := F) (V (main_arg1 : DevRef τ sig)))
          (Cert.Moe.slot (F := F) (Cert.Moe.route (F := F) (V (main_arg1 : DevRef τ sig))))
          (Cert.Moe.keep (F := F) (Cert.Moe.slot (F := F) (Cert.Moe.route (F := F) (V (main_arg1 : DevRef τ sig)))))
          (Cert.Moe.ffnRef (F := F)
            (Cert.Moe.dispatch (F := F) (V (main_arg0 : DevRef τ sig)) (Cert.Moe.route (F := F) (V (main_arg1 : DevRef τ sig)))
              (Cert.Moe.slot (F := F) (Cert.Moe.route (F := F) (V (main_arg1 : DevRef τ sig))))
              (Cert.Moe.keep (F := F) (Cert.Moe.slot (F := F) (Cert.Moe.route (F := F) (V (main_arg1 : DevRef τ sig))))))
            (V (main_arg2 : DevRef τ sig)) (V (main_arg3 : DevRef τ sig)) (V (main_arg4 : DevRef τ sig))) := by
  rw [show (ops : List (HloOp τ sig (Elt F))) = opsRoute ++ (opsFfn ++ opsCombine) from rfl, after_two, after_two,
    combine_gen, ffn_gen,
    after_of_forall_not_mem opsFfn _ (ffn_keeps main_v2 (by decide)),
    after_of_forall_not_mem opsFfn _ (ffn_keeps main_v8 (by decide)),
    after_of_forall_not_mem opsFfn _ (ffn_keeps main_v10 (by decide)),
    route_v2, route_v8, route_v10, route_v27,
    route_arg V main_arg2 (by decide), route_arg V main_arg3 (by decide), route_arg V main_arg4 (by decide)]

theorem arg0_eq (V : Valuation τ sig (Elt F)) : after ops V (main_arg0 : DevRef τ sig) = V (main_arg0 : DevRef τ sig) :=
  after_of_forall_not_mem _ _ (args_keep main_arg0 (by decide))
theorem arg1_eq (V : Valuation τ sig (Elt F)) : after ops V (main_arg1 : DevRef τ sig) = V (main_arg1 : DevRef τ sig) :=
  after_of_forall_not_mem _ _ (args_keep main_arg1 (by decide))
theorem arg2_eq (V : Valuation τ sig (Elt F)) : after ops V (main_arg2 : DevRef τ sig) = V (main_arg2 : DevRef τ sig) :=
  after_of_forall_not_mem _ _ (args_keep main_arg2 (by decide))
theorem arg3_eq (V : Valuation τ sig (Elt F)) : after ops V (main_arg3 : DevRef τ sig) = V (main_arg3 : DevRef τ sig) :=
  after_of_forall_not_mem _ _ (args_keep main_arg3 (by decide))
theorem arg4_eq (V : Valuation τ sig (Elt F)) : after ops V (main_arg4 : DevRef τ sig) = V (main_arg4 : DevRef τ sig) :=
  after_of_forall_not_mem _ _ (args_keep main_arg4 (by decide))

end Cert.ReferenceIdeal.Hand

end
-- ==== Proof.RefFfn.lean ====
/-
  The reference's feed-forward network read at an index: its three batched products are plain sums over the last
  axis, and 1 / (1 + exp (-z)) is the logistic function on every extended real.
-/
import proofs.«108423_j69355131896109_1_alg».proof.Proof.Spec
import Idealize.ShloMosaic.Lib.Pipeline.Value
import Idealize.ShloMosaic.Lib.ValueLayout

noncomputable section

namespace Cert.Moe

open Idealize.ShloMosaic Idealize.SL.Sem Idealize.ShloMosaic.ValueIdx

/-! ## A batched product that contracts the last axis of both operands -/

section LastAxis
variable {G m n k : Nat}

/-- The dimension numbers of such a product over [G, m, k] and [G, n, k]: batch axis 0 of both, contraction over
    axis 2 of both, the free axes 1 and 1. -/
private abbrev lastAxisDims (w : DotDims.WF ⟨3, ![G, m, k]⟩ ⟨3, ![G, n, k]⟩ ⟨3, ![G, m, n]⟩ [2] [2] [1] [1] [0] [0]) :
    DotDims ⟨3, ![G, m, k]⟩ ⟨3, ![G, n, k]⟩ ⟨3, ![G, m, n]⟩ :=
  ⟨[2], [2], [1], [1], [0], [0], w⟩

variable (w : DotDims.WF ⟨3, ![G, m, k]⟩ ⟨3, ![G, n, k]⟩ ⟨3, ![G, m, n]⟩ [2] [2] [1] [1] [0] [0])

/-- The left operand's index at result entry (g, a, b) and contraction position q is (g, a, q's one coordinate). -/
private theorem lastAxis_lhsIdx (g : Fin G) (a : Fin m) (b : Fin n) (q : (lastAxisDims w).contr.Idx) :
    (lastAxisDims w).lhsIdx (ix3 g a b) q = ix3 g a (contrEquiv1 (lastAxisDims w) k rfl rfl q) := by
  funext ax
  apply Fin.ext
  match ax with
  | ⟨0, _⟩ => simp [DotDims.lhsIdx]; rfl
  | ⟨1, _⟩ => simp [DotDims.lhsIdx]; rfl
  | ⟨2, _⟩ => exact (lastAxisDims w).lhsIdx_val_of_single (cl := 2) rfl (ix3 g a b) q

/-- The right operand's index there is (g, b, q's one coordinate). -/
private theorem lastAxis_rhsIdx (g : Fin G) (a : Fin m) (b : Fin n) (q : (lastAxisDims w).contr.Idx) :
    (lastAxisDims w).rhsIdx (ix3 g a b) q = ix3 g b (contrEquiv1 (lastAxisDims w) k rfl rfl q) := by
  funext ax
  apply Fin.ext
  match ax with
  | ⟨0, _⟩ => simp [DotDims.rhsIdx]; rfl
  | ⟨1, _⟩ => simp [DotDims.rhsIdx]; rfl
  | ⟨2, _⟩ => exact (lastAxisDims w).rhsIdx_val_of_single (cr := 2) rfl (ix3 g a b) q

/-- Read at (g, a, b), the product is the sum over the contracted coordinate of A[g, a, ·] times B[g, b, ·]. -/
private theorem dotGeneral_lastAxis_apply {φ₁ φ₂ : FTy} (prec : Option ContractPrecision)
    (A : FVec Ideal ⟨3, ![G, m, k]⟩ φ₁) (B : FVec Ideal ⟨3, ![G, n, k]⟩ φ₂) (g : Fin G) (a : Fin m) (b : Fin n) :
    Host.dotGeneral (lastAxisDims w) prec A B (ix3 g a b) = ∑ c : Fin k, A (ix3 g a c) * B (ix3 g b c) := by
  simp only [Host.dotGeneral]
  rw [Ideal.dotGeneral_apply]
  exact Fintype.sum_equiv (contrEquiv1 (lastAxisDims w) k rfl rfl) _ _ fun q => by
    rw [lastAxis_lhsIdx, lastAxis_rhsIdx]

end LastAxis

/-! ## The constants -/

/-- A scalar constant broadcast to any shape reads, at every index, the extended real its word encodes. -/
private theorem splat_apply {t : Shape} (h : S_.BroadcastsInDim t (![] : Fin 0 → Fin t.rank)) (b : BitVec 32) (j : t.Idx) :
    broadcastInDim t ![] h (constant (F := Ideal) S_ .f32 b) j = Ideal.ofBits .f32 b := rfl

/-- The word 0x3F800000 encodes 1. -/
private theorem ofBits_one_f32 : Ideal.ofBits .f32 0x3F800000#32 = 1 := by
  simp [Ideal.ofBits, Ideal.ieee, -EReal.coe_mul]; norm_num

/-! ## The three products of the reference -/

/-- The hidden layer's pre-activation at (e, c, f): row c of expert e's tokens against row f of its key weights. -/
private theorem dotK_apply (D : FVec Ideal S64x512x512 .f32) (Wk : FVec Ideal S64x1792x512 .f32)
    (e : Fin 64) (c : Fin 512) (f : Fin 1792) :
    Host.dotGeneral dotK none D Wk (ix3 e c f) = ∑ d : Fin 512, D (ix3 e c d) * Wk (ix3 e f d) :=
  dotGeneral_lastAxis_apply dotK_wf none D Wk e c f

/-- The value product at (e, c, g): row c of the hidden layer against row g of the value weights. -/
private theorem dotV_apply (H : FVec Ideal S64x512x1792 .f32) (Wv : FVec Ideal S64x512x1792 .f32)
    (e : Fin 64) (c : Fin 512) (g : Fin 512) :
    Host.dotGeneral dotV none H Wv (ix3 e c g) = ∑ f : Fin 1792, H (ix3 e c f) * Wv (ix3 e g f) :=
  dotGeneral_lastAxis_apply dotV_wf none H Wv e c g

/-- The gate's argument at (e, c, g): row c of expert e's tokens against row g of its receptance weights. -/
private theorem dotR_apply (D : FVec Ideal S64x512x512 .f32) (Wr : FVec Ideal S64x512x512 .f32)
    (e : Fin 64) (c : Fin 512) (g : Fin 512) :
    Host.dotGeneral dotR none D Wr (ix3 e c g) = ∑ d : Fin 512, D (ix3 e c d) * Wr (ix3 e g d) :=
  dotGeneral_lastAxis_apply dotR_wf none D Wr e c g

/-! ## The pointwise stretches -/

/-- The squared rectifier at an index: max (p, 0)², the zero being the broadcast constant's. -/
private theorem reluSq_apply (P : FVec Ideal S64x512x1792 .f32) (j : S64x512x1792.Idx) :
    mulf (maximumf P (broadcastInDim S64x512x1792 ![] bcast_S_S64x512x1792 (constant S_ .f32 0x00000000#32)))
        (maximumf P (broadcastInDim S64x512x1792 ![] bcast_S_S64x512x1792 (constant S_ .f32 0x00000000#32))) j
      = max (P j) 0 * max (P j) 0 := by
  rw [mulf_apply, maximumf_apply, splat_apply, Ideal.ofBits_zero_f32]

/-- The gate at an index: 1 / (1 + exp (-z)), spelt with the host's negation, exponential, sum and quotient and the
    broadcast constant 1, is the logistic function of z, whatever extended real z is (the logistic function is that
    expression by definition, corners included). -/
private theorem gate_apply (Z : FVec Ideal S64x512x512 .f32) (j : S64x512x512.Idx) :
    Host.divf (broadcastInDim S64x512x512 ![] bcast_S_S64x512x512 (constant S_ .f32 0x3F800000#32))
        (addf (broadcastInDim S64x512x512 ![] bcast_S_S64x512x512 (constant S_ .f32 0x3F800000#32))
          (Host.exp (Host.negf Z))) j
      = Ideal.logistic (Z j) := by
  show Ideal.div (Ideal.ofBits .f32 0x3F800000#32) (Ideal.ofBits .f32 0x3F800000#32 + Ideal.exp (-(Z j))) = _
  rw [ofBits_one_f32]
  rfl

theorem ffnRef_eq (D : S64x512x512.Idx → EReal) (Wk : S64x1792x512.Idx → EReal) (Wr : S64x512x512.Idx → EReal)
    (Wv : S64x512x1792.Idx → EReal) :
    ffnRef (F := Ideal) D Wk Wr Wv = ffn D Wk Wr Wv := by
  funext i
  obtain ⟨e, c, g, rfl⟩ : ∃ (e : Fin 64) (c : Fin 512) (g : Fin 512), i = ix3 e c g := ⟨i 0, i 1, i 2, eq_ix3 i⟩
  show ffnRef (F := Ideal) D Wk Wr Wv (ix3 e c g) = ffnAt D Wk Wr Wv e c g
  unfold ffnRef ffnAt
  dsimp only
  rw [mulf_apply, gate_apply, dotR_apply, dotV_apply]
  refine congrArg _ (Finset.sum_congr rfl fun f _ => ?_)
  rw [reluSq_apply, dotK_apply]

end Cert.Moe

end
-- ==== Proof.RRun.lean ====
/-
  The idealized reference's run with its result named: the fold of its host operations at the result buffer is
  the combine of its feed-forward network, which index by index is the network's sums on the extended reals.
-/
import proofs.«108423_j69355131896109_1_alg».proof.Proof.Result
import proofs.«108423_j69355131896109_1_alg».proof.Proof.RHost
import proofs.«108423_j69355131896109_1_alg».proof.Proof.RefFfn

noncomputable section

namespace Cert.ReferenceIdeal.Hand

open Cert.ReferenceIdeal Cert.ReferenceIdeal.Gen Idealize.ShloMosaic Idealize.ShloMosaic.TcCoe Idealize.SL.Sem Idealize.ShloMosaic.StableHlo

/-- The result buffer after @main's operations is `Cert.Moe.result` of the argument buffers. -/
theorem result_eq (V : Valuation τ sig (Elt Ideal)) :
    after ops V (main_v60 : DevRef τ sig)
      = Cert.Moe.result (V (main_arg0 : DevRef τ sig)) (V (main_arg1 : DevRef τ sig)) (V (main_arg2 : DevRef τ sig))
          (V (main_arg3 : DevRef τ sig)) (V (main_arg4 : DevRef τ sig)) := by
  rw [out_eq, Cert.Moe.ffnRef_eq]
  rfl

/-- Every weakly fair execution terminates with the result buffer at `Cert.Moe.result` of the arguments, which
    end unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v60)
        = Cert.Moe.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c main_v60).trans (result_eq _), (h c main_arg0).trans (arg0_eq _), (h c main_arg1).trans (arg1_eq _),
      (h c main_arg2).trans (arg2_eq _), (h c main_arg3).trans (arg3_eq _), (h c main_arg4).trans (arg4_eq _)⟩)
    (run_raw m ρ)

end Cert.ReferenceIdeal.Hand

end
-- ==== Proof.lean ====
/-
  The claim of this certificate: a hash-routed mixture-of-experts layer whose per-expert feed-forward network runs
  in a tiled kernel, against the same layer written with three batched products.

  Both programs route token s to expert e(s) = (id(s) mod 5099) mod 64 and to the slot p(s) = its rank among the
  tokens of that expert, keep it when p(s) < 512, scatter the kept rows of x into a zero array D[64, 512, 512], and
  after the network gather row (e(s), min(p(s), 511)) times the kept mask: one chain of integer host operations, the
  same in both, which the proof names once and never opens. Between the scatter and the gather the kernel computes,
  per expert e and row tile, logistic(D·Wrᵀ) ⊙ ((max(D·Wkᵀ, 0))² · Wvᵀ) with three block products into zero
  accumulators, and the reference the same with three batched products, a relu, a square and 1 / (1 + exp(-z)).
  On the extended reals a block product into a zero accumulator and a batched product are the same sum over the
  contracted axis, a change of float format is the identity, and 1 / (1 + exp(-z)) is the logistic function at every
  extended real, so the two networks agree entry by entry for ALL contents of D and the weights: no finiteness of the
  inputs is used. The kernel's 128 grid points write disjoint row tiles that cover the output array once.

  The frames of the two kernel programs are the generated frame certificates; the reference's frame is its run
  with the result dropped; the idealization rewrote nothing.
-/
import proofs.«108423_j69355131896109_1_alg».proof.Defs
import proofs.«108423_j69355131896109_1_alg».proof.Proof.Gen.Kernel
import proofs.«108423_j69355131896109_1_alg».proof.Proof.Gen.Kernel.Skeleton
import proofs.«108423_j69355131896109_1_alg».proof.Proof.Gen.Kernel.Launch
import proofs.«108423_j69355131896109_1_alg».proof.Proof.Gen.Kernel.Points
import proofs.«108423_j69355131896109_1_alg».proof.Proof.Gen.Kernel.Frame
import proofs.«108423_j69355131896109_1_alg».proof.Proof.Gen.KernelIdeal
import proofs.«108423_j69355131896109_1_alg».proof.Proof.Gen.KernelIdeal.Skeleton
import proofs.«108423_j69355131896109_1_alg».proof.Proof.Gen.KernelIdeal.Launch
import proofs.«108423_j69355131896109_1_alg».proof.Proof.Gen.KernelIdeal.Points
import proofs.«108423_j69355131896109_1_alg».proof.Proof.Gen.KernelIdeal.Frame
import proofs.«108423_j69355131896109_1_alg».proof.Proof.Gen.ReferenceIdeal
import proofs.«108423_j69355131896109_1_alg».proof.Proof.Gen.Pre_finite_inputs
import proofs.«108423_j69355131896109_1_alg».proof.Proof.KRun
import proofs.«108423_j69355131896109_1_alg».proof.Proof.RRun
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Hand.run m ρ)

/-- The ideal pass rewrote no operation. -/
theorem preserves : Cert.preserves_Kernel_KernelIdeal := trivial

/-- Both idealized programs end with the result buffer at the same function of the arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
